-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S1500 : Shape := ⟨1, ![1500]⟩
abbrev S6 : Shape := ⟨1, ![6]⟩
abbrev S1 : Shape := ⟨1, ![1]⟩
abbrev S100000 : Shape := ⟨1, ![100000]⟩
abbrev S4000000x2 : Shape := ⟨2, ![4000000, 2]⟩
abbrev S6x4000000 : Shape := ⟨2, ![6, 4000000]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1500 : S_.BroadcastsInDim S1500 (![] : Fin 0 → Fin S1500.rank)
  reducesTo_S1500_S_d0 : S1500.ReducesTo [0] S_
  bcast_S_S6 : S_.BroadcastsInDim S6 (![] : Fin 0 → Fin S6.rank)
  reducesTo_S6_S_d0 : S6.ReducesTo [0] S_
  bcast_S_S1 : S_.BroadcastsInDim S1 (![] : Fin 0 → Fin S1.rank)
  reducesTo_S1_S_d0 : S1.ReducesTo [0] S_
  bcast_S_S4000000x2 : S_.BroadcastsInDim S4000000x2 (![] : Fin 0 → Fin S4000000x2.rank)
  reducesTo_S4000000x2_S_d0_1 : S4000000x2.ReducesTo [0, 1] S_

variable [Facts]

def fn_part1 {F : FTy → Type} [FloatOps F] (main_arg5 : IVec S4000000x2 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 4294867296#32
  let main_v19 : IVec S4000000x2 32 := broadcastInDim S4000000x2 ![] bcast_S_S4000000x2 main_c_6
  let main_v20 : IVec S4000000x2 1 := cmpi .sge main_arg5 main_v19
  let main_c_7 : IVec S_ 32 := constantI S_ 32 100000#32
  let main_v21 : IVec S4000000x2 32 := broadcastInDim S4000000x2 ![] bcast_S_S4000000x2 main_c_7
  let main_v22 : IVec S4000000x2 1 := cmpi .slt main_arg5 main_v21
  let main_v23 : IVec S4000000x2 1 := andi main_v20 main_v22
  let main_c_8 : IVec S_ 1 := constantI S_ 1 1#1
  let main_v24 : IVec S_ 1 := (fun x v => Host.reduce IntOp.andi x v reducesTo_S4000000x2_S_d0_1 h_S_) main_v23 main_c_8
  let main_v25 : IVec S_ 1 := andi main_v18 main_v24
  main_v25

def fn {F : FTy → Type} [FloatOps F] (main_arg0 : FVec F S100000x3 .f32) (main_arg1 : FVec F S1500 .f32) (main_arg2 : FVec F S6 .f32) (main_arg3 : FVec F S1 .f32) (main_arg4 : IVec S100000 32) (main_arg5 : IVec S4000000x2 32) (main_arg6 : IVec S6x4000000 1) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1500 .f32 := Host.absf main_arg1
  let main_cst_0 : FVec F S_ .f32 := constant S_ .f32 0x7F800000#32
  let main_v5 : FVec F S1500 .f32 := broadcastInDim S1500 ![] bcast_S_S1500 main_cst_0
  let main_v6 : IVec S1500 1 := cmpf .olt main_v4 main_v5
  let main_c_1 : IVec S_ 1 := constantI S_ 1 1#1
  let main_v7 : IVec S_ 1 := (fun x v => Host.reduce IntOp.andi x v reducesTo_S1500_S_d0 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_v13 main_v16
-- ==== Kernel.lean ====
abbrev S100000x3 : Shape := ⟨2, ![100000, 3]⟩
abbrev S1500 : Shape := ⟨1, ![1500]⟩
abbrev S6 : Shape := ⟨1, ![6]⟩
abbrev S1 : Shape := ⟨1, ![1]⟩
abbrev S100000 : Shape := ⟨1, ![100000]⟩
abbrev S4000000x2 : Shape := ⟨2, ![4000000, 2]⟩
abbrev S6x4000000 : Shape := ⟨2, ![6, 4000000]⟩
abbrev S4000000x1 : Shape := ⟨2, ![4000000, 1]⟩
abbrev S4000000 : Shape := ⟨1, ![4000000]⟩
abbrev S3x100000 : Shape := ⟨2, ![3, 100000]⟩
abbrev S_ : Shape := ⟨0, ![]⟩
abbrev S1x1 : Shape := ⟨2, ![1, 1]⟩
abbrev S3x4000000 : Shape := ⟨2, ![3, 4000000]⟩
abbrev S100000x1 : Shape := ⟨2, ![100000, 1]⟩
abbrev S1x4000000 : Shape := ⟨2, ![1, 4000000]⟩
abbrev S6x1 : Shape := ⟨2, ![6, 1]⟩
abbrev S3x160000 : Shape := ⟨2, ![3, 160000]⟩
abbrev S1x160000 : Shape := ⟨2, ![1, 160000]⟩
abbrev S6x160000 : Shape := ⟨2, ![6, 160000]⟩
abbrev S160000 : Shape := ⟨1, ![160000]⟩

abbrev nBuf : Space → Nat
  | .hbm => 92
  | .vmem => 14
  | .smem => 0
  | _ => 0

abbrev bufTy : (tb : Table) → Fin (tcTables nBuf tb) → BufTy
  | .hbm, ⟨0, _⟩ => ⟨S100000x3, .f32⟩
  | .hbm, ⟨1, _⟩ => ⟨S1500, .f32⟩
  | .hbm, ⟨2, _⟩ => ⟨S6, .f32⟩
  | .hbm, ⟨3, _⟩ => ⟨S1, .f32⟩
  | .hbm, ⟨4, _⟩ => ⟨S100000, .i32⟩
  | .hbm, ⟨5, _⟩ => ⟨S4000000x2, .i32⟩
  | .hbm, ⟨6, _⟩ => ⟨S6x4000000, .i1⟩
  | .hbm, ⟨7, _⟩ => ⟨S4000000x1, .i32⟩
  | .hbm, ⟨8, _⟩ => ⟨S4000000, .i32⟩
  | .hbm, ⟨9, _⟩ => ⟨S4000000x1, .i32⟩
  | .hbm, ⟨10, _⟩ => ⟨S4000000, .i32⟩
  | .hbm, ⟨11, _⟩ => ⟨S3x100000, .f32⟩
  | .hbm, ⟨12, _⟩ => ⟨S_, .i32⟩
  | .hbm, ⟨13, _⟩ => ⟨S4000000, .i32⟩
  | .hbm, ⟨14, _⟩ => ⟨S4000000, .i1⟩
  | .hbm, ⟨15, _⟩ => ⟨S_, .i32⟩
  | .hbm, ⟨16, _⟩ => ⟨S4000000, .i32⟩
  | .hbm, ⟨17, _⟩ => ⟨S4000000, .i32⟩
  | .hbm, ⟨18, _⟩ => ⟨S4000000, .i32⟩
  | .hbm, ⟨19, _⟩ => ⟨S4000000x1, .i32⟩
  | .hbm, ⟨20, _⟩ => ⟨S1, .i32⟩
  | .hbm, ⟨21, _⟩ => ⟨S_, .i32⟩
  | .hbm, ⟨22, _⟩ => ⟨S4000000x1, .i32⟩
  | .hbm, ⟨23, _⟩ => ⟨S4000000x1, .i1⟩
  | .hbm, ⟨24, _⟩ => ⟨S1x1, .i32⟩
  | .hbm, ⟨25, _⟩ => ⟨S4000000x1, .i32⟩
  | .hbm, ⟨26, _⟩ => ⟨S4000000x1, .i1⟩
  | .hbm, ⟨27, _⟩ => ⟨S4000000x1, .i1⟩
  | .hbm, ⟨28, _⟩ => ⟨S_, .i1⟩
  | .hbm, ⟨29, _⟩ => ⟨S4000000, .i1⟩
  | .hbm, ⟨30, _⟩ => ⟨S3x4000000, .f32⟩
  | .hbm, ⟨31, _⟩ => ⟨S3x4000000, .i1⟩
  | .hbm, ⟨32, _⟩ => ⟨S_, .f32⟩
  | .hbm, ⟨33, _⟩ => ⟨S3x4000000, .f32⟩
  | .hbm, ⟨34, _⟩ => ⟨S3x4000000, .f32⟩
  | .hbm, ⟨35, _⟩ => ⟨S_, .i32⟩
  | .hbm, ⟨36, _⟩ => ⟨S4000000, .i32⟩
  | .hbm, ⟨37, _⟩ => ⟨S4000000, .i1⟩
  | .hbm, ⟨38, _⟩ => ⟨S_, .i32⟩
  | .hbm, ⟨39, _⟩ => ⟨S4000000, .i32⟩
  | .hbm, ⟨40, _⟩ => ⟨S4000000, .i32⟩
  | .hbm, ⟨41, _⟩ => ⟨S4000000, .i32⟩
  | .hbm, ⟨42, _⟩ => ⟨S4000000x1, .i32⟩
  | .hbm, ⟨43, _⟩ => ⟨S1, .i32⟩
  | .hbm, ⟨44, _⟩ => ⟨S_, .i32⟩
  | .hbm, ⟨45, _⟩ => ⟨S4000000x1, .i32⟩
  | .hbm, ⟨46, _⟩ => ⟨S4000000x1, .i1⟩
  | .hbm, ⟨47, _⟩ => ⟨S1x1, .i32⟩
  | .hbm, ⟨48, _⟩ => ⟨S4000000x1, .i32⟩
  | .hbm, ⟨49, _⟩ => ⟨S4000000x1, .i1⟩
  | .hbm, ⟨50, _⟩ => ⟨S4000000x1, .i1⟩
  | .hbm, ⟨51, _⟩ => ⟨S_, .i1⟩
  | .hbm, ⟨52, _⟩ => ⟨S4000000, .i1⟩
  | .hbm, ⟨53, _⟩ => ⟨S3x4000000, .f32⟩
  | .hbm, ⟨54, _⟩ => ⟨S3x4000000, .i1⟩
  | .hbm, ⟨55, _⟩ => ⟨S_, .f32⟩
  | .hbm, ⟨56, _⟩ => ⟨S3x4000000, .f32⟩
  | .hbm, ⟨57, _⟩ => ⟨S3x4000000, .f32⟩
  | .hbm, ⟨58, _⟩ => ⟨S_, .i32⟩
  | .hbm, ⟨59, _⟩ => ⟨S100000, .i32⟩
  | .hbm, ⟨60, _⟩ => ⟨S100000, .i1⟩
  | .hbm, ⟨61, _⟩ => ⟨S_, .i32⟩
  | .hbm, ⟨62, _⟩ => ⟨S100000, .i32⟩
  | .hbm, ⟨63, _⟩ => ⟨S100000, .i32⟩
  | .hbm, ⟨64, _⟩ => ⟨S100000, .i32⟩
  | .hbm, ⟨65, _⟩ => ⟨S100000x1, .i32⟩
  | .hbm, ⟨66, _⟩ => ⟨S100000, .f32⟩
  | .hbm, ⟨67, _⟩ => ⟨S_, .i32⟩
  | .hbm, ⟨68, _⟩ => ⟨S4000000, .i32⟩
  | .hbm, ⟨69, _⟩ => ⟨S4000000, .i1⟩
  | .hbm, ⟨70, _⟩ => ⟨S_, .i32⟩
  | .hbm, ⟨71, _⟩ => ⟨S4000000, .i32⟩
  | .hbm, ⟨72, _⟩ => ⟨S4000000, .i32⟩
  | .hbm, ⟨73, _⟩ => ⟨S4000000, .i32⟩
  | .hbm, ⟨74, _⟩ => ⟨S4000000x1, .i32⟩
  | .hbm, ⟨75, _⟩ => ⟨S4000000, .f32⟩
  | .hbm, ⟨76, _⟩ => ⟨S1x4000000, .f32⟩
  | .hbm, ⟨77, _⟩ => ⟨S_, .i32⟩
  | .hbm, ⟨78, _⟩ => ⟨S4000000, .i32⟩
  | .hbm, ⟨79, _⟩ => ⟨S4000000, .i1⟩
  | .hbm, ⟨80, _⟩ => ⟨S_, .i32⟩
  | .hbm, ⟨81, _⟩ => ⟨S4000000, .i32⟩
  | .hbm, ⟨82, _⟩ => ⟨S4000000, .i32⟩
  | .hbm, ⟨83, _⟩ => ⟨S4000000, .i32⟩
  | .hbm, ⟨84, _⟩ => ⟨S4000000x1, .i32⟩
  | .hbm, ⟨85, _⟩ => ⟨S4000000, .f32⟩
  | .hbm, ⟨86, _⟩ => ⟨S1x4000000, .f32⟩
  | .hbm, ⟨87, _⟩ => ⟨S6x1, .f32⟩
  | .hbm, ⟨88, _⟩ => ⟨S1x1, .f32⟩
  | .hbm, ⟨89, _⟩ => ⟨S6x4000000, .i32⟩
  | .hbm, ⟨90, _⟩ => ⟨S6x1, .f32⟩
  | .hbm, ⟨91, _⟩ => ⟨S6, .f32⟩
  | .local _ .vmem, ⟨0, _⟩ => ⟨S3x160000, .f32⟩
  | .local _ .vmem, ⟨1, _⟩ => ⟨S3x160000, .f32⟩
  | .local _ .vmem, ⟨2, _⟩ => ⟨S3x160000, .f32⟩
  | .local _ .vmem, ⟨3, _⟩ => ⟨S3x160000, .f32⟩
  | .local _ .vmem, ⟨4, _⟩ => ⟨S1x160000, .f32⟩
  | .local _ .vmem, ⟨5, _⟩ => ⟨S1x160000, .f32⟩
  | .local _ .vmem, ⟨6, _⟩ => ⟨S1x160000, .f32⟩
  | .local _ .vmem, ⟨7, _⟩ => ⟨S1x160000, .f32⟩
  | .local _ .vmem, ⟨8, _⟩ => ⟨S6x160000, .i32⟩
  | .local _ .vmem, ⟨9, _⟩ => ⟨S6x160000, .i32⟩
  | .local _ .vmem, ⟨10, _⟩ => ⟨S6x1, .f32⟩
  | .local _ .vmem, ⟨11, _⟩ => ⟨S1x1, .f32⟩
  | .local _ .vmem, ⟨12, _⟩ => ⟨S6x1, .f32⟩
  | .local _ .vmem, ⟨13, _⟩ => ⟨S6x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v5 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v6 : Ref sig .tc := ⟨.hbm, 57, rfl⟩
abbrev main_c : Ref sig .tc := ⟨.hbm, 58, rfl⟩
abbrev main_v7 : Ref sig .tc := ⟨.hbm, 59, rfl⟩
abbrev main_v8 : Ref sig .tc := ⟨.hbm, 60, rfl⟩
abbrev main_c_0 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_c_1 : Ref sig .tc := ⟨.hbm, 67, rfl⟩
abbrev main_v14 : Ref sig .tc := ⟨.hbm, 68, rfl⟩
abbrev main_v15 : Ref sig .tc := ⟨.hbm, 69, rfl⟩
abbrev main_c_2 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_c_3 : Ref sig .tc := ⟨.hbm, 77, rfl⟩
abbrev main_v22 : Ref sig .tc := ⟨.hbm, 78, rfl⟩
abbrev main_v23 : Ref sig .tc := ⟨.hbm, 79, rfl⟩
abbrev main_c_4 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v38 : BitVec 1 := Scalar.cmpi .eq arg0 c24_i32
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x160000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x160000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x160000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x160000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S6x160000 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  transposes_S100000x3_S3x100000_1_0 : S100000x3.Transposes [1, 0] S3x100000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  reducesTo_S4000000x1_S4000000_d1 : S4000000x1.ReducesTo [1] S4000000
  h_S_ : 0 < S_.numel
  bcast_S4000000_S3x4000000_1 : S4000000.BroadcastsInDim S3x4000000 (![1] : Fin 1 → Fin S3x4000000.rank)
  bcast_S_S3x4000000 : S_.BroadcastsInDim S3x4000000 (![] : Fin 0 → Fin S3x4000000.rank)
  bcast_S_S100000 : S_.BroadcastsInDim S100000 (![] : Fin 0 → Fin S100000.rank)
  bcast_S100000_S100000x1_0 : S100000.BroadcastsInDim S100000x1 (![0] : Fin 1 → Fin S100000x1.rank)
  bcast_S4000000_S1x4000000_1 : S4000000.BroadcastsInDim S1x4000000 (![1] : Fin 1 → Fin S1x4000000.rank)
  shapeCasts_S6_S6x1 : S6.ShapeCasts S6x1
  shapeCasts_S1_S1x1 : S1.ShapeCasts S1x1
  natLt_1_32 : 1 < 32
  inb_S6x1_S6x1_0_0 : ∀ a, (![0, 0] : Fin 2 → Nat) a + S6x1.size a ≤ S6x1.size a
  h_S6x1 : 0 < S6x1.numel
  shapeCasts_S6x1_S6x1 : S6x1.ShapeCasts S6x1
  inb_S3x160000_S3x160000_0_0 : ∀ a, (![0, 0] : Fin 2 → Nat) a + S3x160000.size a ≤ S3x160000.size a
  h_S3x160000 : 0 < S3x160000.numel
  shapeCasts_S3x160000_S3x160000 : S3x160000.ShapeCasts S3x160000
  reduces_S3x160000_S160000 : S3x160000.Reduces [0] S160000
  shapeCasts_S160000_S1x160000 : S160000.ShapeCasts S1x160000
  inb_S1x160000_S1x160000_0_0 : ∀ a, (![0, 0] : Fin 2 → Nat) a + S1x160000.size a ≤ S1x160000.size a
  h_S1x160000 : 0 < S1x160000.numel
  shapeCasts_S1x160000_S1x160000 : S1x160000.ShapeCasts S1x160000
  broadcasts_S1x160000_S6x160000 : S1x160000.Broadcasts S6x160000
  broadcasts_S6x1_S6x160000 : S6x1.Broadcasts S6x160000
  inb_S6x160000_S6x160000_0_0 : ∀ a, (![0, 0] : Fin 2 → Nat) a + S6x160000.size a ≤ S6x160000.size a
  h_S6x160000 : 0 < S6x160000.numel
  reduces_S6x160000_S6 : S6x160000.Reduces [1] S6
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S6x1_S6 : S6x1.ShapeCasts S6
  gather_S3x100000_S4000000x1_S3x4000000_0_1_n_n_1_1_31_wf : GatherDims.WF S3x100000 S4000000x1 S3x4000000 [0] [1] [] [1] [] 1 ![3, 1]
  gather_S1500_S100000x1_S100000_n_0_n_n_0_1_1_wf : GatherDims.WF S1500 S100000x1 S100000 [] [0] [] [0] [] 1 ![1]
  gather_S100000_S4000000x1_S4000000_n_0_n_n_0_1_1_wf : GatherDims.WF S100000 S4000000x1 S4000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x160000.size a ≤ S3x4000000.size a
  hwx0_0 : ∀ i : grid0.Coords, EltTy.bits .f32 = 32 ∨ (Rect.block (s := S3x4000000) S3x160000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x160000.size a ≤ S3x4000000.size a
  hwx0_1 : ∀ i : grid0.Coords, EltTy.bits .f32 = 32 ∨ (Rect.block (s := S3x4000000) S3x160000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x160000.size a ≤ S1x4000000.size a
  hwx0_2 : ∀ i : grid0.Coords, EltTy.bits .f32 = 32 ∨ (Rect.block (s := S1x4000000) S1x160000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x160000.size a ≤ S1x4000000.size a
  hwx0_3 : ∀ i : grid0.Coords, EltTy.bits .f32 = 32 ∨ (Rect.block (s := S1x4000000) S1x160000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6x160000.size a ≤ S6x4000000.size a
  hwx0_4 : ∀ i : grid0.Coords, EltTy.bits .i32 = 32 ∨ (Rect.block (s := S6x4000000) S6x160000.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x1.size a ≤ S6x1.size a
  hwx0_5 : ∀ i : grid0.Coords, EltTy.bits .f32 = 32 ∨ (Rect.block (s := S6x1) S6x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x1.size a ≤ S6x1.size a
  hwx0_7 : ∀ i : grid0.Coords, EltTy.bits .f32 = 32 ∨ (Rect.block (s := S6x1) S6x1.size (cc0_transform_7 i) (hinb0_7 i)).WholeWords (EltTy.packing .f32)

variable [Facts₀]

def gather_S3x100000_S4000000x1_S3x4000000_0_1_n_n_1_1_31 : GatherDims S3x100000 S4000000x1 S3x4000000 where
  offsetDims := [0]
  collapsedSliceDims := [1]
  operandBatchingDims := []
  startIndicesBatchingDims := []
  startIndexMap := [1]
  indexVectorDim := 1
  sliceSizes := ![3, 1]
  wf := gather_S3x100000_S4000000x1_S3x4000000_0_1_n_n_1_1_31_wf
def gather_S1500_S100000x1_S100000_n_0_n_n_0_1_1 : GatherDims S1500 S100000x1 S100000 where
  offsetDims := []
  collapsedSliceDims := [0]
  operandBatchingDims := []
  startIndicesBatchingDims := []
  startIndexMap := [0]
  indexVectorDim := 1
  sliceSizes := ![1]
  wf := gather_S1500_S100000x1_S100000_n_0_n_n_0_1_1_wf
def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf

abbrev win0_0 : Pipeline.Window sig grid0 :=
  Pipeline.Window.ofSpec (Memref.whole main_v5) S3x160000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3x160000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x160000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x160000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32) S6x160000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S6x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v33) S6x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S100000x3 : Shape := ⟨2, ![100000, 3]⟩
abbrev S1500 : Shape := ⟨1, ![1500]⟩
abbrev S6 : Shape := ⟨1, ![6]⟩
abbrev S1 : Shape := ⟨1, ![1]⟩
abbrev S100000 : Shape := ⟨1, ![100000]⟩
abbrev S4000000x2 : Shape := ⟨2, ![4000000, 2]⟩
abbrev S6x4000000 : Shape := ⟨2, ![6, 4000000]⟩
abbrev S4000000x1 : Shape := ⟨2, ![4000000, 1]⟩
abbrev S4000000 : Shape := ⟨1, ![4000000]⟩
abbrev S_ : Shape := ⟨0, ![]⟩
abbrev S4000000x3 : Shape := ⟨2, ![4000000, 3]⟩
abbrev S1x4000000 : Shape := ⟨2, ![1, 4000000]⟩
abbrev S6x1 : Shape := ⟨2, ![6, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S1500, .f32⟩
  | .hbm, ⟨2, _⟩ => ⟨S6, .f32⟩
  | .hbm, ⟨3, _⟩ => ⟨S1, .f32⟩
  | .hbm, ⟨4, _⟩ => ⟨S100000, .i32⟩
  | .hbm, ⟨5, _⟩ => ⟨S4000000x2, .i32⟩
  | .hbm, ⟨6, _⟩ => ⟨S6x4000000, .i1⟩
  | .hbm, ⟨7, _⟩ => ⟨S4000000x1, .i32⟩
  | .hbm, ⟨8, _⟩ => ⟨S4000000, .i32⟩
  | .hbm, ⟨9, _⟩ => ⟨S4000000x1, .i32⟩
  | .hbm, ⟨10, _⟩ => ⟨S4000000, .i32⟩
  | .hbm, ⟨11, _⟩ => ⟨S_, .i32⟩
  | .hbm, ⟨12, _⟩ => ⟨S4000000, .i32⟩
  | .hbm, ⟨13, _⟩ => ⟨S4000000, .i1⟩
  | .hbm, ⟨14, _⟩ => ⟨S_, .i32⟩
  | .hbm, ⟨15, _⟩ => ⟨S4000000, .i32⟩
  | .hbm, ⟨16, _⟩ => ⟨S4000000, .i32⟩
  | .hbm, ⟨17, _⟩ => ⟨S4000000, .i32⟩
  | .hbm, ⟨18, _⟩ => ⟨S4000000x1, .i32⟩
  | .hbm, ⟨19, _⟩ => ⟨S4000000x3, .f32⟩
  | .hbm, ⟨20, _⟩ => ⟨S_, .i32⟩
  | .hbm, ⟨21, _⟩ => ⟨S4000000, .i32⟩
  | .hbm, ⟨22, _⟩ => ⟨S4000000, .i1⟩
  | .hbm, ⟨23, _⟩ => ⟨S_, .i32⟩
  | .hbm, ⟨24, _⟩ => ⟨S4000000, .i32⟩
  | .hbm, ⟨25, _⟩ => ⟨S4000000, .i32⟩
  | .hbm, ⟨26, _⟩ => ⟨S4000000, .i32⟩
  | .hbm, ⟨27, _⟩ => ⟨S4000000x1, .i32⟩
  | .hbm, ⟨28, _⟩ => ⟨S4000000x3, .f32⟩
  | .hbm, ⟨29, _⟩ => ⟨S4000000x3, .f32⟩
  | .hbm, ⟨30, _⟩ => ⟨S4000000x3, .f32⟩
  | .hbm, ⟨31, _⟩ => ⟨S_, .f32⟩
  | .hbm, ⟨32, _⟩ => ⟨S4000000, .f32⟩
  | .hbm, ⟨33, _⟩ => ⟨S_, .f32⟩
  | .hbm, ⟨34, _⟩ => ⟨S4000000, .f32⟩
  | .hbm, ⟨35, _⟩ => ⟨S4000000, .f32⟩
  | .hbm, ⟨36, _⟩ => ⟨S4000000, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000, .i32⟩
  | .hbm, ⟨46, _⟩ => ⟨S_, .i32⟩
  | .hbm, ⟨47, _⟩ => ⟨S4000000, .i32⟩
  | .hbm, ⟨48, _⟩ => ⟨S4000000, .i1⟩
  | .hbm, ⟨49, _⟩ => ⟨S_, .i32⟩
  | .hbm, ⟨50, _⟩ => ⟨S4000000, .i32⟩
  | .hbm, ⟨51, _⟩ => ⟨S4000000, .i32⟩
  | .hbm, ⟨52, _⟩ => ⟨S4000000, .i32⟩
  | .hbm, ⟨53, _⟩ => ⟨S4000000x1, .i32⟩
  | .hbm, ⟨54, _⟩ => ⟨S4000000, .f32⟩
  | .hbm, ⟨55, _⟩ => ⟨S_, .i32⟩
  | .hbm, ⟨56, _⟩ => ⟨S4000000, .i32⟩
  | .hbm, ⟨57, _⟩ => ⟨S4000000, .i1⟩
  | .hbm, ⟨58, _⟩ => ⟨S_, .i32⟩
  | .hbm, ⟨59, _⟩ => ⟨S4000000, .i32⟩
  | .hbm, ⟨60, _⟩ => ⟨S4000000, .i32⟩
  | .hbm, ⟨61, _⟩ => ⟨S4000000, .i32⟩
  | .hbm, ⟨62, _⟩ => ⟨S4000000x1, .i32⟩
  | .hbm, ⟨63, _⟩ => ⟨S4000000, .i32⟩
  | .hbm, ⟨64, _⟩ => ⟨S_, .i32⟩
  | .hbm, ⟨65, _⟩ => ⟨S4000000, .i32⟩
  | .hbm, ⟨66, _⟩ => ⟨S4000000, .i1⟩
  | .hbm, ⟨67, _⟩ => ⟨S_, .i32⟩
  | .hbm, ⟨68, _⟩ => ⟨S4000000, .i32⟩
  | .hbm, ⟨69, _⟩ => ⟨S4000000, .i32⟩
  | .hbm, ⟨70, _⟩ => ⟨S4000000, .i32⟩
  | .hbm, ⟨71, _⟩ => ⟨S4000000x1, .i32⟩
  | .hbm, ⟨72, _⟩ => ⟨S4000000, .f32⟩
  | .hbm, ⟨73, _⟩ => ⟨S4000000, .f32⟩
  | .hbm, ⟨74, _⟩ => ⟨S1x4000000, .f32⟩
  | .hbm, ⟨75, _⟩ => ⟨S6x1, .f32⟩
  | .hbm, ⟨76, _⟩ => ⟨S6x4000000, .f32⟩
  | .hbm, ⟨77, _⟩ => ⟨S6x4000000, .f32⟩
  | .hbm, ⟨78, _⟩ => ⟨S6x4000000, .f32⟩
  | .hbm, ⟨79, _⟩ => ⟨S1x4000000, .f32⟩
  | .hbm, ⟨80, _⟩ => ⟨S6x4000000, .f32⟩
  | .hbm, ⟨81, _⟩ => ⟨S6x4000000, .f32⟩
  | .hbm, ⟨82, _⟩ => ⟨S_, .f32⟩
  | .hbm, ⟨83, _⟩ => ⟨S6x4000000, .f32⟩
  | .hbm, ⟨84, _⟩ => ⟨S6x4000000, .f32⟩
  | .hbm, ⟨85, _⟩ => ⟨S_, .f32⟩
  | .hbm, ⟨86, _⟩ => ⟨S_, .f32⟩
  | .hbm, ⟨87, _⟩ => ⟨S6x4000000, .f32⟩
  | .hbm, ⟨88, _⟩ => ⟨S6x4000000, .f32⟩
  | .hbm, ⟨89, _⟩ => ⟨S_, .f32⟩
  | .hbm, ⟨90, _⟩ => ⟨S6, .f32⟩
  | .hbm, ⟨91, _⟩ => ⟨S_, .f32⟩
  | .hbm, ⟨92, _⟩ => ⟨S_, .f32⟩
  | .hbm, ⟨93, _⟩ => ⟨S6, .f32⟩
  | .hbm, ⟨94, _⟩ => ⟨S6, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call0_cst : Ref sig .tc := ⟨.hbm, 82, rfl⟩
abbrev main_call0_v0 : Ref sig .tc := ⟨.hbm, 83, rfl⟩
abbrev main_v61 : Ref sig .tc := ⟨.hbm, 84, rfl⟩
abbrev main_cst_12 : Ref sig .tc := ⟨.hbm, 85, rfl⟩
abbrev main_call1_v0 : Ref sig .tc := ⟨.hbm, 86, rfl⟩
abbrev main_call1_v1 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]

class Facts₀ : Prop where
  slices_S4000000x2_S4000000x1_0_0 : S4000000x2.Slices ![0, 0] S4000000x1
  shapeCasts_S4000000x1_S4000000 : S4000000x1.ShapeCasts S4000000
  slices_S4000000x2_S4000000x1_0_1 : S4000000x2.Slices ![0, 1] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000x3_S4000000_d1 : S4000000x3.ReducesTo [1] S4000000
  h_S_ : 0 < S_.numel
  bcast_S4000000_S1x4000000_1 : S4000000.BroadcastsInDim S1x4000000 (![1] : Fin 1 → Fin S1x4000000.rank)
  bcast_S6_S6x1_0 : S6.BroadcastsInDim S6x1 (![0] : Fin 1 → Fin S6x1.rank)
  bcast_S1x4000000_S6x4000000_0_1 : S1x4000000.BroadcastsInDim S6x4000000 (![0, 1] : Fin 2 → Fin S6x4000000.rank)
  bcast_S6x1_S6x4000000_0_1 : S6x1.BroadcastsInDim S6x4000000 (![0, 1] : Fin 2 → Fin S6x4000000.rank)
  bcast_S_S6x4000000 : S_.BroadcastsInDim S6x4000000 (![] : Fin 0 → Fin S6x4000000.rank)
  reducesTo_S6x4000000_S6_d1 : S6x4000000.ReducesTo [1] S6
  shapeCasts_S1_S_ : S1.ShapeCasts S_
  bcast_S_S6 : S_.BroadcastsInDim S6 (![] : Fin 0 → Fin S6.rank)
  gather_S100000x3_S4000000x1_S4000000x3_1_0_n_n_0_1_13_wf : GatherDims.WF S100000x3 S4000000x1 S4000000x3 [1] [0] [] [0] [] 1 ![1, 3]
  gather_S100000_S4000000x1_S4000000_n_0_n_n_0_1_1_wf : GatherDims.WF S100000 S4000000x1 S4000000 [] [0] [] [0] [] 1 ![1]
  gather_S1500_S4000000x1_S4000000_n_0_n_n_0_1_1_wf : GatherDims.WF S1500 S4000000x1 S4000000 [] [0] [] [0] [] 1 ![1]

variable [Facts₀]

def gather_S100000x3_S4000000x1_S4000000x3_1_0_n_n_0_1_13 : GatherDims S100000x3 S4000000x1 S4000000x3 where
  offsetDims := [1]
  collapsedSliceDims := [0]
  operandBatchingDims := []
  startIndicesBatchingDims := []
  startIndexMap := [0]
  indexVectorDim := 1
  sliceSizes := ![1, 3]
  wf := gather_S100000x3_S4000000x1_S4000000x3_1_0_n_n_0_1_13_wf
def gather_S100000_S4000000x1_S4000000_n_0_n_n_0_1_1 : GatherDims S100000 S4000000x1 S4000000 where
  offsetDims := []
  collapsedSliceDims := [0]
  operandBatchingDims := []
  startIndicesBatchingDims := []
  startIndexMap := [0]
  indexVectorDim := 1
  sliceSizes := ![1]
  wf := gather_S100000_S4000000x1_S4000000_n_0_n_n_0_1_1_wf
def gather_S1500_S4000000x1_S4000000_n_0_n_n_0_1_1 : GatherDims S1500 S4000000x1 S4000000 where
  offsetDims := []
  collapsedSliceDims := [0]
  operandBatchingDims := []
  startIndicesBatchingDims := []
  startIndexMap := [0]
  indexVectorDim := 1
  sliceSizes := ![1]
  wf := gather_S1500_S4000000x1_S4000000_n_0_n_n_0_1_1_wf

class Facts : Prop extends Facts₀ where

variable [Facts]
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.ClashSpec.lean ====
/-
  The clash energy as one function of the seven argument arrays, over the extended reals.

  For pair `j` with endpoints `p₀ = atom j 0`, `p₁ = atom j 1` (an index word counts from the end when negative and is
  then clamped into the table) the distance is `dist j = √(∑ₐ (x[p₀,a] − x[p₁,a])² + ε)`, the radii sum is
  `rsum j = r[h(p₀)] + r[h(p₁)]` with `h` the atom's name hashed into the radius table, and class `k` contributes
  `clash k j = mask[k,j] ? max(rsum j + tol k − dist j, 0) : 0`. The energy of class `k` is `(∑ⱼ clash k j) · exp(w)`.

  The kernel adds the tolerance after subtracting the distance (`sub_add_comm'`: addition of extended reals is
  commutative and associative, so the two orders agree with no finiteness needed), sums the pairs in 25 consecutive
  blocks of 160000 (`sum_blocks`) and carries the running sum from block to block (`acc`, `acc_last`).
-/
import Idealize.ShloMosaic.PureOps
import Idealize.ShloMosaic.PureOps.Ideal.Laws
import Idealize.ShloMosaic.Lib.ValueIdx
import proofs.«406138_j54004918780081_1_alg».proof.Proof.LibGatherRows

noncomputable section

namespace Cert.Clash

open Idealize.ShloMosaic Idealize.ShloMosaic.ValueIdx Idealize.ShloMosaic.RowGather

abbrev Coords := FVec Ideal (⟨2, ![100000, 3]⟩ : Shape) .f32
abbrev Radii := FVec Ideal (⟨1, ![1500]⟩ : Shape) .f32
abbrev Tols := FVec Ideal (⟨1, ![6]⟩ : Shape) .f32
abbrev Weight := FVec Ideal (⟨1, ![1]⟩ : Shape) .f32
abbrev Names := IVec (⟨1, ![100000]⟩ : Shape) 32
abbrev Pairs := IVec (⟨2, ![4000000, 2]⟩ : Shape) 32
abbrev Masks := IVec (⟨2, ![6, 4000000]⟩ : Shape) 1

/-- Every pair index word, read signed, names an atom directly or from the end: it lies in `[-100000, 100000)`. -/
def PairsInRange (pairs : Pairs) : Prop :=
  ∀ i, -100000 ≤ (pairs i).toInt ∧ (pairs i).toInt < 100000

/-- The atom endpoint `s` of pair `j` names: the index word wrapped (a negative word counts from the end), then clamped
    into the table. -/
def atom (pairs : Pairs) (j : Fin 4000000) (s : Fin 2) : Fin 100000 :=
  clampRow 100000 (by decide) (wrap (pairs (ix2 j s)))

/-- The wrap of a name word into the radius table of 1500 entries. -/
def wrapHash (i : BitVec 32) : BitVec 32 :=
  Scalar.select (IntOp.cmpi .slt i 0#32) (IntOp.addi i 1500#32) i

/-- The radius-table row of atom `a`: its name word wrapped, then clamped. -/
def hashRow (names : Names) (a : Fin 100000) : Fin 1500 :=
  clampRow 1500 (by decide) (wrapHash (names (ix1 a)))

section
variable (coords : Coords) (radii : Radii) (tol : Tols) (weight : Weight) (names : Names) (pairs : Pairs) (masks : Masks)

/-- The van-der-Waals radius of endpoint `s` of pair `j`. -/
def radius (j : Fin 4000000) (s : Fin 2) : EReal := radii (ix1 (hashRow names (atom pairs j s)))

/-- The squared distance of pair `j`'s endpoints. -/
def sumsq (j : Fin 4000000) : EReal :=
  ∑ a : Fin 3, (coords (ix2 (atom pairs j 0) a) - coords (ix2 (atom pairs j 1) a))
    * (coords (ix2 (atom pairs j 0) a) - coords (ix2 (atom pairs j 1) a))

/-- The regularised distance `√(sumsq + ε)`, `ε` the f32 nearest `1e-12` (the same word in both programs). -/
def dist (j : Fin 4000000) : EReal := Ideal.sqrt (sumsq coords pairs j + Ideal.ofBits .f32 0x2B8CBCCC#32)

/-- The sum of the two endpoints' radii. -/
def rsum (j : Fin 4000000) : EReal := radius radii names pairs j 0 + radius radii names pairs j 1

/-- Class `k`'s clash of pair `j`: the overlap `rsum + tol − dist` where positive and the mask is set, else zero. -/
def clash (k : Fin 6) (j : Fin 4000000) : EReal :=
  Scalar.select (masks (ix2 k j))
    (max (rsum radii names pairs j + tol (ix1 k) - dist coords pairs j) (Ideal.ofBits .f32 0x00000000#32))
    (Ideal.ofBits .f32 0x00000000#32)

/-- Class `k`'s energy: the clashes summed over all pairs, scaled by `exp(weight)`. -/
def energy (k : Fin 6) : EReal :=
  (∑ j : Fin 4000000, clash coords radii tol names pairs masks k j) * Ideal.exp (weight (ix1 0))

end

/-- Adding the tolerance before or after subtracting the distance is the same extended real. -/
theorem sub_add_comm' (a d t : EReal) : a - d + t = a + t - d := by
  rw [sub_eq_add_neg, sub_eq_add_neg, add_right_comm]

/-- A one-bit mask widened to a word is non-zero exactly when the bit is set. -/
theorem mask_ne_zero (b : BitVec 1) : IntOp.cmpi .ne (b.setWidth 32) 0#32 = b := by
  rcases BitVec.eq_zero_or_eq_one b with h | h <;> subst h <;> decide

/-- Pair `l` of block `t`: the pairs are taken in 25 consecutive blocks of 160000. -/
def blockPair (t : Fin 25) (l : Fin 160000) : Fin 4000000 :=
  ⟨160000 * t.val + l.val, by have := t.isLt; have := l.isLt; omega⟩

/-- The running sum the kernel carries: reset to zero before the first block, each block's part added in turn. -/
def acc (p : ℕ → EReal) : ℕ → EReal
  | 0 => Ideal.ofBits .f32 0x00000000#32 + p 0
  | n + 1 => acc p n + p (n + 1)

end Cert.Clash

end
-- ==== Proof.PreRange.lean ====
/-
  The precondition, read: where `finite_inputs` evaluates to all ones, every pair index word, read signed, lies in
  `[-100000, 100000)` — the conjunct `all((atom_pairs >= -100000) & (atom_pairs < 100000))` of its conjunction.
-/
import proofs.«406138_j54004918780081_1_alg».proof.Pre_finite_inputs
import proofs.«406138_j54004918780081_1_alg».proof.Proof.Gen.Pre_finite_inputs
import proofs.«406138_j54004918780081_1_alg».proof.Proof.ClashSpec
import Idealize.ShloMosaic.Lib.ReduceAll
import Idealize.ShloMosaic.Lib.StableHlo.Predicate

noncomputable section

namespace Cert.Clash

open Idealize.ShloMosaic Idealize.ShloMosaic.ValueIdx

/-- Where the precondition holds, the pair indices are in range. -/
theorem pairsInRange_of_pre {F : FTy → Type} [FloatOps F] [Cert.Pre_finite_inputs.Facts]
    (x0 : FVec F Cert.Pre_finite_inputs.S100000x3 .f32) (x1 : FVec F Cert.Pre_finite_inputs.S1500 .f32)
    (x2 : FVec F Cert.Pre_finite_inputs.S6 .f32) (x3 : FVec F Cert.Pre_finite_inputs.S1 .f32)
    (x4 : IVec Cert.Pre_finite_inputs.S100000 32) (x5 : IVec Cert.Pre_finite_inputs.S4000000x2 32)
    (x6 : IVec Cert.Pre_finite_inputs.S6x4000000 1)
    (h : Cert.Pre_finite_inputs.fn (F := F) x0 x1 x2 x3 x4 x5 x6 = fun _ => 1#1) :
    PairsInRange x5 := by
  intro i
  haveI : Subsingleton Cert.Pre_finite_inputs.S_.Idx := ⟨fun a b => funext fun d => d.elim0⟩
  -- The precondition at its one index is a conjunction; its last conjunct is the `all` of the range tests.
  have h0 : IntOp.andi _ _ = 1#1 := congrFun h ValueIdx.ix0
  -- An `all` that is one had a one at every index, so at `i`.
  have hi := Host.reduce_andi_all _ _ _ _ _ (IntOp.andi_eq_one.1 h0).2 i
  -- At `i` the test is the conjunction of the two signed compares of the word with the broadcast bounds.
  have hc : IntOp.andi (IntOp.cmpi .sge (x5 i) 4294867296#32) (IntOp.cmpi .slt (x5 i) 100000#32) = 1#1 := hi
  obtain ⟨hge, hlt⟩ := IntOp.andi_eq_one.1 hc
  rw [IntOp.cmpi_sge, show (4294867296#32 : BitVec 32).toInt = -100000 from by decide] at hge
  rw [IntOp.cmpi_slt, show (100000#32 : BitVec 32).toInt = 100000 from by decide] at hlt
  exact ⟨hge, hlt⟩

end Cert.Clash

end
-- ==== Proof.LibGatherVec.lean ====
/-
  A gather from a rank-1 table (`x[idx]` on a vector) read at an index.

  Table `[N]`, start indices `[E, 1]`, result `[E]`: result element `e` is the table's entry `r`, where `r` is the
  index word `idx[e, 0]` read as a signed integer and clamped into `[0, N - 1]`.
-/
import Idealize.ShloMosaic.PureOps
import Idealize.ShloMosaic.Lib.ValueIdx
import proofs.«406138_j54004918780081_1_alg».proof.Proof.LibGatherRows

noncomputable section

namespace Idealize.ShloMosaic.RowGather

open Idealize.ShloMosaic Idealize.ShloMosaic.ValueIdx

variable {α : Type}

/-- Gather of single entries: table `[N]`, indices `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (clampRow N hN (idx (ix2 e (0 : Fin 1))))) := by
  unfold Host.gather
  congr 1
  funext a
  refine Fin.ext ?_
  match a with
  | ⟨0, _⟩ =>
    show (vecDims N E wf).start (ix1 e) idx 0 + (vecDims N E wf).batchCoord (ix1 e) 0
      + (vecDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N E wf).startIndexMap from List.mem_singleton.mpr rfl)]
    have hsi : (vecDims N E wf).siIdx (ix1 e) ⟨List.idxOf (0 : Fin 1) (vecDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Idealize.ShloMosaic.RowGather

end
-- ==== Proof.RefValue.lean ====
/-
  The reference's result, read: class `k`'s entry of its result array is `Cert.Clash.energy … k` of the argument arrays.

  Bottom-up, one lemma per stage or short run of stages, each at an index given by its coordinates: the two columns of
  the pair array, their wraps, the three kinds of gather (coordinate rows, name words, radii), the distance, the clash
  term, and last the sum over the pairs scaled by the exponential of the weight.
-/
import proofs.«406138_j54004918780081_1_alg».proof.Proof.Gen.ReferenceIdeal.Run
import proofs.«406138_j54004918780081_1_alg».proof.Proof.Gen.ReferenceIdeal.Read
import proofs.«406138_j54004918780081_1_alg».proof.Proof.ClashSpec
import proofs.«406138_j54004918780081_1_alg».proof.Proof.LibGatherVec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Cert.Clash
open Idealize.ShloMosaic Idealize.ShloMosaic.ValueIdx Idealize.ShloMosaic.RowGather

/-! ## The pair array's two columns and their wraps -/

/-- Column 0 of the pair array, as a vector, at pair `j`. -/
theorem v1_eq (x5 : (⟨S4000000x2, .i32⟩ : BufTy).Contents (Elt Ideal)) (j : Fin 4000000) :
    val_main_v1 (F := Ideal) x5 (ix1 j) = x5 (ix2 j 0) := by
  rw [val_main_v1_apply, val_main_v0_apply]
  exact congrArg x5 (funext fun a => Fin.ext (by
    match a with
    | ⟨0, _⟩ => exact Nat.div_one _
    | ⟨1, _⟩ => rfl))

/-- Column 1 of the pair array, as a vector, at pair `j`. -/
theorem v3_eq (x5 : (⟨S4000000x2, .i32⟩ : BufTy).Contents (Elt Ideal)) (j : Fin 4000000) :
    val_main_v3 (F := Ideal) x5 (ix1 j) = x5 (ix2 j 1) := by
  rw [val_main_v3_apply, val_main_v2_apply]
  exact congrArg x5 (funext fun a => Fin.ext (by
    match a with
    | ⟨0, _⟩ => exact Nat.div_one _
    | ⟨1, _⟩ => rfl))

/-- The first endpoint's index word, wrapped. -/
theorem v8_eq (x5 : (⟨S4000000x2, .i32⟩ : BufTy).Contents (Elt Ideal)) (j : Fin 4000000) :
    val_main_v8 (F := Ideal) x5 (ix1 j) = wrap (x5 (ix2 j 0)) := by
  rw [val_main_v8_apply, val_main_v5_apply, val_main_v7_apply, val_main_v4_apply, val_main_c_apply,
    val_main_v6_apply, val_main_c_0_apply, v1_eq]
  rfl

/-- The second endpoint's index word, wrapped. -/
theorem v15_eq (x5 : (⟨S4000000x2, .i32⟩ : BufTy).Contents (Elt Ideal)) (j : Fin 4000000) :
    val_main_v15 (F := Ideal) x5 (ix1 j) = wrap (x5 (ix2 j 1)) := by
  rw [val_main_v15_apply, val_main_v12_apply, val_main_v14_apply, val_main_v11_apply, val_main_c_1_apply,
    val_main_v13_apply, val_main_c_2_apply, v3_eq]
  rfl

/-- The first endpoint's wrapped word again (the program computes it once more for the name gather). -/
theorem v28_eq (x5 : (⟨S4000000x2, .i32⟩ : BufTy).Contents (Elt Ideal)) (j : Fin 4000000) :
    val_main_v28 (F := Ideal) x5 (ix1 j) = wrap (x5 (ix2 j 0)) := by
  rw [val_main_v28_apply, val_main_v25_apply, val_main_v27_apply, val_main_v24_apply, val_main_c_4_apply,
    val_main_v26_apply, val_main_c_5_apply, v1_eq]
  rfl

/-- The second endpoint's wrapped word again. -/
theorem v42_eq (x5 : (⟨S4000000x2, .i32⟩ : BufTy).Contents (Elt Ideal)) (j : Fin 4000000) :
    val_main_v42 (F := Ideal) x5 (ix1 j) = wrap (x5 (ix2 j 1)) := by
  rw [val_main_v42_apply, val_main_v39_apply, val_main_v41_apply, val_main_v38_apply, val_main_c_8_apply,
    val_main_v40_apply, val_main_c_9_apply, v3_eq]
  rfl

/-! ## The gathers -/

/-- A `[4000000]` vector broadcast to `[4000000, 1]` is read at `(j, 0)` from entry `j`. -/
private theorem col_idx (j : Fin 4000000) : idx_main_v9 (ix2 j (0 : Fin 1)) = ix1 j :=
  funext fun b => Fin.ext (by match b with | ⟨0, _⟩ => rfl)

/-- The first endpoint's coordinate row. -/
theorem v10_eq (x0 : (⟨S100000x3, .f32⟩ : BufTy).Contents (Elt Ideal)) (x5 : (⟨S4000000x2, .i32⟩ : BufTy).Contents (Elt Ideal)) (j : Fin 4000000) (a : Fin 3) :
    val_main_v10 (F := Ideal) x0 x5 (ix2 j a) = x0 (ix2 (atom x5 j 0) a) := by
  have h := gather_rows_apply (N := 100000) (C := 3) (E := 4000000) (by decide)
    Facts₀.gather_S100000x3_S4000000x1_S4000000x3_1_0_n_n_0_1_13_wf x0 (val_main_v9 (F := Ideal) x5) j a
  rw [val_main_v9_apply, col_idx, v8_eq] at h
  exact h

/-- The second endpoint's coordinate row. -/
theorem v17_eq (x0 : (⟨S100000x3, .f32⟩ : BufTy).Contents (Elt Ideal)) (x5 : (⟨S4000000x2, .i32⟩ : BufTy).Contents (Elt Ideal)) (j : Fin 4000000) (a : Fin 3) :
    val_main_v17 (F := Ideal) x0 x5 (ix2 j a) = x0 (ix2 (atom x5 j 1) a) := by
  have h := gather_rows_apply (N := 100000) (C := 3) (E := 4000000) (by decide)
    Facts₀.gather_S100000x3_S4000000x1_S4000000x3_1_0_n_n_0_1_13_wf x0 (val_main_v16 (F := Ideal) x5) j a
  rw [val_main_v16_apply, show idx_main_v16 (ix2 j (0 : Fin 1)) = ix1 j from col_idx j, v15_eq] at h
  exact h

/-- The first endpoint's name word. -/
theorem v30_eq (x4 : (⟨S100000, .i32⟩ : BufTy).Contents (Elt Ideal)) (x5 : (⟨S4000000x2, .i32⟩ : BufTy).Contents (Elt Ideal)) (j : Fin 4000000) :
    val_main_v30 (F := Ideal) x4 x5 (ix1 j) = x4 (ix1 (atom x5 j 0)) := by
  have h := gather_vec_apply (N := 100000) (E := 4000000) (by decide)
    Facts₀.gather_S100000_S4000000x1_S4000000_n_0_n_n_0_1_1_wf x4 (val_main_v29 (F := Ideal) x5) j
  rw [val_main_v29_apply, show idx_main_v29 (ix2 j (0 : Fin 1)) = ix1 j from col_idx j, v28_eq] at h
  exact h

/-- The second endpoint's name word. -/
theorem v44_eq (x4 : (⟨S100000, .i32⟩ : BufTy).Contents (Elt Ideal)) (x5 : (⟨S4000000x2, .i32⟩ : BufTy).Contents (Elt Ideal)) (j : Fin 4000000) :
    val_main_v44 (F := Ideal) x4 x5 (ix1 j) = x4 (ix1 (atom x5 j 1)) := by
  have h := gather_vec_apply (N := 100000) (E := 4000000) (by decide)
    Facts₀.gather_S100000_S4000000x1_S4000000_n_0_n_n_0_1_1_wf x4 (val_main_v43 (F := Ideal) x5) j
  rw [val_main_v43_apply, show idx_main_v43 (ix2 j (0 : Fin 1)) = ix1 j from col_idx j, v42_eq] at h
  exact h

/-- The first endpoint's name word wrapped into the radius table. -/
theorem v35_eq (x4 : (⟨S100000, .i32⟩ : BufTy).Contents (Elt Ideal)) (x5 : (⟨S4000000x2, .i32⟩ : BufTy).Contents (Elt Ideal)) (j : Fin 4000000) :
    val_main_v35 (F := Ideal) x4 x5 (ix1 j) = wrapHash (x4 (ix1 (atom x5 j 0))) := by
  rw [val_main_v35_apply, val_main_v32_apply, val_main_v34_apply, val_main_v31_apply, val_main_c_6_apply,
    val_main_v33_apply, val_main_c_7_apply, v30_eq]
  rfl

/-- The second endpoint's name word wrapped into the radius table. -/
theorem v49_eq (x4 : (⟨S100000, .i32⟩ : BufTy).Contents (Elt Ideal)) (x5 : (⟨S4000000x2, .i32⟩ : BufTy).Contents (Elt Ideal)) (j : Fin 4000000) :
    val_main_v49 (F := Ideal) x4 x5 (ix1 j) = wrapHash (x4 (ix1 (atom x5 j 1))) := by
  rw [val_main_v49_apply, val_main_v46_apply, val_main_v48_apply, val_main_v45_apply, val_main_c_10_apply,
    val_main_v47_apply, val_main_c_11_apply, v44_eq]
  rfl

/-- The first endpoint's radius. -/
theorem v37_eq (x1 : (⟨S1500, .f32⟩ : BufTy).Contents (Elt Ideal)) (x4 : (⟨S100000, .i32⟩ : BufTy).Contents (Elt Ideal)) (x5 : (⟨S4000000x2, .i32⟩ : BufTy).Contents (Elt Ideal)) (j : Fin 4000000) :
    val_main_v37 (F := Ideal) x1 x4 x5 (ix1 j) = radius x1 x4 x5 j 0 := by
  have h := gather_vec_apply (N := 1500) (E := 4000000) (by decide)
    Facts₀.gather_S1500_S4000000x1_S4000000_n_0_n_n_0_1_1_wf x1 (val_main_v36 (F := Ideal) x4 x5) j
  rw [val_main_v36_apply, show idx_main_v36 (ix2 j (0 : Fin 1)) = ix1 j from col_idx j, v35_eq] at h
  exact h

/-- The second endpoint's radius. -/
theorem v51_eq (x1 : (⟨S1500, .f32⟩ : BufTy).Contents (Elt Ideal)) (x4 : (⟨S100000, .i32⟩ : BufTy).Contents (Elt Ideal)) (x5 : (⟨S4000000x2, .i32⟩ : BufTy).Contents (Elt Ideal)) (j : Fin 4000000) :
    val_main_v51 (F := Ideal) x1 x4 x5 (ix1 j) = radius x1 x4 x5 j 1 := by
  have h := gather_vec_apply (N := 1500) (E := 4000000) (by decide)
    Facts₀.gather_S1500_S4000000x1_S4000000_n_0_n_n_0_1_1_wf x1 (val_main_v50 (F := Ideal) x4 x5) j
  rw [val_main_v50_apply, show idx_main_v50 (ix2 j (0 : Fin 1)) = ix1 j from col_idx j, v49_eq] at h
  exact h

/-! ## The distance -/

/-- One coordinate's squared difference. -/
theorem v19_eq (x0 : (⟨S100000x3, .f32⟩ : BufTy).Contents (Elt Ideal)) (x5 : (⟨S4000000x2, .i32⟩ : BufTy).Contents (Elt Ideal)) (j : Fin 4000000) (a : Fin 3) :
    val_main_v19 (F := Ideal) x0 x5 (ix2 j a)
      = (x0 (ix2 (atom x5 j 0) a) - x0 (ix2 (atom x5 j 1) a))
        * (x0 (ix2 (atom x5 j 0) a) - x0 (ix2 (atom x5 j 1) a)) := by
  rw [val_main_v19_apply, val_main_v18_apply, v10_eq, v17_eq]
  rfl

/-- The squared distance: the sum over the three coordinates, started from zero. -/
theorem v20_eq (x0 : (⟨S100000x3, .f32⟩ : BufTy).Contents (Elt Ideal)) (x5 : (⟨S4000000x2, .i32⟩ : BufTy).Contents (Elt Ideal)) (j : Fin 4000000) :
    val_main_v20 (F := Ideal) x0 x5 (ix1 j) = sumsq x0 x5 j := by
  rw [val_main_v20_apply, val_main_cst_apply]
  simp only [Ideal.ofBits_def, Ideal.ofBits_zero_f32, zero_add]
  unfold sumsq
  refine Finset.sum_congr rfl fun a _ => ?_
  rw [show idx_main_v20 (ix1 j) a = ix2 j a from
    funext fun b => Fin.ext (by match b with | ⟨0, _⟩ => rfl | ⟨1, _⟩ => rfl)]
  exact v19_eq x0 x5 j a

/-- The regularised distance. -/
theorem v23_eq (x0 : (⟨S100000x3, .f32⟩ : BufTy).Contents (Elt Ideal)) (x5 : (⟨S4000000x2, .i32⟩ : BufTy).Contents (Elt Ideal)) (j : Fin 4000000) :
    val_main_v23 (F := Ideal) x0 x5 (ix1 j) = dist x0 x5 j := by
  rw [val_main_v23_apply, val_main_v22_apply, v20_eq, val_main_v21_apply, val_main_cst_3_apply]
  rfl

/-! ## The clash term -/

/-- The two radii added. -/
theorem v52_eq (x1 : (⟨S1500, .f32⟩ : BufTy).Contents (Elt Ideal)) (x4 : (⟨S100000, .i32⟩ : BufTy).Contents (Elt Ideal)) (x5 : (⟨S4000000x2, .i32⟩ : BufTy).Contents (Elt Ideal)) (j : Fin 4000000) :
    val_main_v52 (F := Ideal) x1 x4 x5 (ix1 j) = rsum x1 x4 x5 j := by
  rw [val_main_v52_apply, v37_eq, v51_eq]
  rfl

/-- The radii sum plus the class's tolerance, at class `k` and pair `j`. -/
theorem v57_eq (x1 : (⟨S1500, .f32⟩ : BufTy).Contents (Elt Ideal)) (x2 : (⟨S6, .f32⟩ : BufTy).Contents (Elt Ideal)) (x4 : (⟨S100000, .i32⟩ : BufTy).Contents (Elt Ideal)) (x5 : (⟨S4000000x2, .i32⟩ : BufTy).Contents (Elt Ideal)) (k : Fin 6) (j : Fin 4000000) :
    val_main_v57 (F := Ideal) x1 x2 x4 x5 (ix2 k j) = rsum x1 x4 x5 j + x2 (ix1 k) := by
  rw [val_main_v57_apply, val_main_v55_apply, val_main_v53_apply, val_main_v56_apply, val_main_v54_apply,
    show idx_main_v53 (idx_main_v55 (ix2 k j)) = ix1 j from
      funext fun b => Fin.ext (by match b with | ⟨0, _⟩ => rfl),
    show idx_main_v54 (idx_main_v56 (ix2 k j)) = ix1 k from
      funext fun b => Fin.ext (by match b with | ⟨0, _⟩ => rfl),
    v52_eq]
  rfl

/-- The overlap before the cut at zero. -/
theorem v60_eq (x0 : (⟨S100000x3, .f32⟩ : BufTy).Contents (Elt Ideal)) (x1 : (⟨S1500, .f32⟩ : BufTy).Contents (Elt Ideal)) (x2 : (⟨S6, .f32⟩ : BufTy).Contents (Elt Ideal)) (x4 : (⟨S100000, .i32⟩ : BufTy).Contents (Elt Ideal)) (x5 : (⟨S4000000x2, .i32⟩ : BufTy).Contents (Elt Ideal)) (k : Fin 6) (j : Fin 4000000) :
    val_main_v60 (F := Ideal) x0 x1 x2 x4 x5 (ix2 k j) = rsum x1 x4 x5 j + x2 (ix1 k) - dist x0 x5 j := by
  rw [val_main_v60_apply, v57_eq, val_main_v59_apply, val_main_v58_apply,
    show idx_main_v58 (idx_main_v59 (ix2 k j)) = ix1 j from
      funext fun b => Fin.ext (by match b with | ⟨0, _⟩ => rfl),
    v23_eq]
  rfl

/-- The masked, cut overlap is the specification's clash term. -/
theorem v62_eq (x0 : (⟨S100000x3, .f32⟩ : BufTy).Contents (Elt Ideal)) (x1 : (⟨S1500, .f32⟩ : BufTy).Contents (Elt Ideal)) (x2 : (⟨S6, .f32⟩ : BufTy).Contents (Elt Ideal)) (x4 : (⟨S100000, .i32⟩ : BufTy).Contents (Elt Ideal)) (x5 : (⟨S4000000x2, .i32⟩ : BufTy).Contents (Elt Ideal)) (x6 : (⟨S6x4000000, .i1⟩ : BufTy).Contents (Elt Ideal)) (k : Fin 6) (j : Fin 4000000) :
    val_main_v62 (F := Ideal) x0 x1 x2 x4 x5 x6 (ix2 k j) = clash x0 x1 x2 x4 x5 x6 k j := by
  rw [val_main_v62_apply, val_main_v61_apply, v60_eq, val_main_call0_v0_apply, val_main_call0_cst_apply,
    val_main_call1_v1_apply, val_main_call1_v0_apply, val_main_cst_12_apply]
  rfl

/-! ## The sum over the pairs and the weight -/

/-- The clash terms of class `k` summed over all pairs, started from zero. -/
theorem v63_eq (x0 : (⟨S100000x3, .f32⟩ : BufTy).Contents (Elt Ideal)) (x1 : (⟨S1500, .f32⟩ : BufTy).Contents (Elt Ideal)) (x2 : (⟨S6, .f32⟩ : BufTy).Contents (Elt Ideal)) (x4 : (⟨S100000, .i32⟩ : BufTy).Contents (Elt Ideal)) (x5 : (⟨S4000000x2, .i32⟩ : BufTy).Contents (Elt Ideal)) (x6 : (⟨S6x4000000, .i1⟩ : BufTy).Contents (Elt Ideal)) (k : Fin 6) :
    val_main_v63 (F := Ideal) x0 x1 x2 x4 x5 x6 (ix1 k) = ∑ j : Fin 4000000, clash x0 x1 x2 x4 x5 x6 k j := by
  rw [val_main_v63_apply, val_main_cst_13_apply]
  simp only [Ideal.ofBits_def, Ideal.ofBits_zero_f32, zero_add]
  refine Finset.sum_congr rfl fun j _ => ?_
  rw [show idx_main_v63 (ix1 k) j = ix2 k j from
    funext fun b => Fin.ext (by match b with | ⟨0, _⟩ => rfl | ⟨1, _⟩ => rfl)]
  exact v62_eq x0 x1 x2 x4 x5 x6 k j

/-- The one-entry weight array viewed as a scalar is its entry: both shapes have one element, at position zero. -/
theorem v64_eq (x3 : (⟨S1, .f32⟩ : BufTy).Contents (Elt Ideal)) (i : S_.Idx) : val_main_v64 (F := Ideal) x3 i = x3 (ix1 0) := by
  unfold val_main_v64
  refine shapeCast_apply x3 Facts₀.shapeCasts_S1_S_ i (ix1 0) ?_
  have e1 : S1.numel = 1 := by decide
  have e2 : S_.numel = 1 := by decide
  have h1 : (S1.rowMajor (ix1 (0 : Fin 1))).val < 1 := lt_of_lt_of_eq (S1.rowMajor (ix1 (0 : Fin 1))).isLt e1
  have h2 : (S_.rowMajor i).val < 1 := lt_of_lt_of_eq (S_.rowMajor i).isLt e2
  show (S1.rowMajor (ix1 (0 : Fin 1))).val = (S_.rowMajor i).val
  omega

/-- The exponential of the weight, broadcast over the classes. -/
theorem v66_eq (x3 : (⟨S1, .f32⟩ : BufTy).Contents (Elt Ideal)) (k : Fin 6) : val_main_v66 (F := Ideal) x3 (ix1 k) = Ideal.exp (x3 (ix1 0)) := by
  rw [val_main_v66_apply, val_main_v65_apply, v64_eq]
  rfl

/-- The reference's result array at class `k` is the specification's energy of the arguments. -/
theorem result_eq (x0 : (⟨S100000x3, .f32⟩ : BufTy).Contents (Elt Ideal)) (x1 : (⟨S1500, .f32⟩ : BufTy).Contents (Elt Ideal))
    (x2 : (⟨S6, .f32⟩ : BufTy).Contents (Elt Ideal)) (x3 : (⟨S1, .f32⟩ : BufTy).Contents (Elt Ideal))
    (x4 : (⟨S100000, .i32⟩ : BufTy).Contents (Elt Ideal)) (x5 : (⟨S4000000x2, .i32⟩ : BufTy).Contents (Elt Ideal))
    (x6 : (⟨S6x4000000, .i1⟩ : BufTy).Contents (Elt Ideal)) (k : Fin 6) :
    val_main_v67 (F := Ideal) x0 x1 x2 x3 x4 x5 x6 (ix1 k) = energy x0 x1 x2 x3 x4 x5 x6 k := by
  rw [val_main_v67_apply, v63_eq, v66_eq]
  rfl

end Cert.ReferenceIdeal.RefValue

end
-- ==== Proof.KPieces.lean ====
/-
  What one run of the kernel body leaves behind, case by case, as values.

  At the first grid point the body stores the zero column into the accumulator, reads it back and stores
  `0 + part`; at every later point it stores `acc + part` over the accumulator `acc` the point before left; at the
  last point it also stores `acc' · exp(w)` into the output block, `acc'` the accumulator it has just stored. Here
  `part` is the body's arithmetic on the point's input blocks (the generated payload `k0_pay4`, which adds `part`
  to the accumulator it is given).
-/
import proofs.«406138_j54004918780081_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- The accumulator after a point, from the accumulator `acc` before it and the point's input blocks. -/
abbrev step (x0 x1 : Vec F S3x160000 .f32) (x2 x3 : Vec F S1x160000 .f32) (x4 : Vec F S6x160000 .i32) (x5 : Vec F S6x1 .f32)
    (acc : Vec F S6x1 .f32) : Vec F S6x1 .f32 :=
  k0_pay1 (k0_pay4 x0 x1 x2 x3 x5 x4 acc)

/-- CASE B (neither the first nor the last point): the accumulator ends at `step` of what the point before left. -/
theorem scr_B (c : Dev nD) (i : grid0.Coords) (a1 : Memref sig .tc .vmem S3x160000 .f32) (h1 : a1.IsWhole) (a2 : Memref sig .tc .vmem S3x160000 .f32) (h2 : a2.IsWhole) (a3 : Memref sig .tc .vmem S1x160000 .f32) (h3 : a3.IsWhole) (a4 : Memref sig .tc .vmem S1x160000 .f32) (h4 : a4.IsWhole) (a5 : Memref sig .tc .vmem S6x160000 .i32) (h5 : a5.IsWhole) (a6 : Memref sig .tc .vmem S6x1 .f32) (h6 : a6.IsWhole) (a7 : Memref sig .tc .vmem S1x1 .f32) (h7 : a7.IsWhole) (a8 : Memref sig .tc .vmem S6x1 .f32) (h8 : a8.IsWhole) (a9 : Memref sig .tc .vmem S6x1 .f32) (h9 : a9.IsWhole) (hc0 : ¬cond0_0 i) (hc1 : ¬cond0_1 i)
    (x0 : Vec F S3x160000 .f32) (x1 : Vec F S3x160000 .f32) (x2 : Vec F S1x160000 .f32) (x3 : Vec F S1x160000 .f32) (x4 : Vec F S6x160000 .i32) (x5 : Vec F S6x1 .f32) (x6 : Vec F S1x1 .f32) (xs0 : Vec F S6x1 .f32) :
    sout0_B_0 c i a1 h1 a2 h2 a3 h3 a4 h4 a5 h5 a6 h6 a7 h7 a8 h8 a9 h9 hc0 hc1 x0 x1 x2 x3 x4 x5 x6 xs0 = step x0 x1 x2 x3 x4 x5 xs0 := by
  unfold sout0_B_0
  rw [View.read_writes_eq_canon _ _ _ (scover0_B_0 c i a1 h1 a2 h2 a3 h3 a4 h4 a5 h5 a6 h6 a7 h7 a8 h8 a9 h9 hc0 hc1 x0 x1 x2 x3 x4 x5 x6 xs0)]
  unfold kernelRun0_B
  dsimp only
  sl_unfold_words
  rw [View.canon_unit_zero hz]
  simp only [View.readAt_eq_ld, h1.read_unread, h2.read_unread, h3.read_unread, h4.read_unread, h5.read_unread, h6.read_unread,
    h9.read_unread, View.ld_unit_zero (S := S3x160000) hz, View.ld_unit_zero (S := S1x160000) hz,
    View.ld_unit_zero (S := S6x160000) hz, View.ld_unit_zero (S := S6x1) hz]

/-- CASE A (the first point): the accumulator is reset to the zero column, then stepped. -/
theorem scr_A (c : Dev nD) (i : grid0.Coords) (a1 : Memref sig .tc .vmem S3x160000 .f32) (h1 : a1.IsWhole) (a2 : Memref sig .tc .vmem S3x160000 .f32) (h2 : a2.IsWhole) (a3 : Memref sig .tc .vmem S1x160000 .f32) (h3 : a3.IsWhole) (a4 : Memref sig .tc .vmem S1x160000 .f32) (h4 : a4.IsWhole) (a5 : Memref sig .tc .vmem S6x160000 .i32) (h5 : a5.IsWhole) (a6 : Memref sig .tc .vmem S6x1 .f32) (h6 : a6.IsWhole) (a7 : Memref sig .tc .vmem S1x1 .f32) (h7 : a7.IsWhole) (a8 : Memref sig .tc .vmem S6x1 .f32) (h8 : a8.IsWhole) (a9 : Memref sig .tc .vmem S6x1 .f32) (h9 : a9.IsWhole) (hc0 : cond0_0 i) (hc1 : ¬cond0_1 i)
    (x0 : Vec F S3x160000 .f32) (x1 : Vec F S3x160000 .f32) (x2 : Vec F S1x160000 .f32) (x3 : Vec F S1x160000 .f32) (x4 : Vec F S6x160000 .i32) (x5 : Vec F S6x1 .f32) (x6 : Vec F S1x1 .f32) :
    sout0_A_0 c i a1 h1 a2 h2 a3 h3 a4 h4 a5 h5 a6 h6 a7 h7 a8 h8 a9 h9 hc0 hc1 x0 x1 x2 x3 x4 x5 x6 = step x0 x1 x2 x3 x4 x5 (k0_pay3 (F := F)) := by
  unfold sout0_A_0
  rw [View.read_writes_eq_canon _ _ _ (scover0_A_0 c i a1 h1 a2 h2 a3 h3 a4 h4 a5 h5 a6 h6 a7 h7 a8 h8 a9 h9 hc0 hc1 x0 x1 x2 x3 x4 x5 x6)]
  unfold kernelRun0_A
  dsimp only
  sl_unfold_words
  rw [View.canon_cons_unit_zero (S := S6x1) hz]
  simp only [View.readAt_eq_ld, h1.read_unread, h2.read_unread, h3.read_unread, h4.read_unread, h5.read_unread, h6.read_unread,
    h7.read_unread, h9.read_unread, View.ld_unit_zero (S := S3x160000) hz, View.ld_unit_zero (S := S1x160000) hz,
    View.ld_unit_zero (S := S6x160000) hz, View.ld_unit_zero (S := S6x1) hz, View.ld_unit_zero (S := S1x1) hz,
    View.readCov_unit_zero (S := S6x1) _ hz]

/-- CASE C (the last point): the accumulator is stepped as in case B, -/
theorem scr_C (c : Dev nD) (i : grid0.Coords) (a1 : Memref sig .tc .vmem S3x160000 .f32) (h1 : a1.IsWhole) (a2 : Memref sig .tc .vmem S3x160000 .f32) (h2 : a2.IsWhole) (a3 : Memref sig .tc .vmem S1x160000 .f32) (h3 : a3.IsWhole) (a4 : Memref sig .tc .vmem S1x160000 .f32) (h4 : a4.IsWhole) (a5 : Memref sig .tc .vmem S6x160000 .i32) (h5 : a5.IsWhole) (a6 : Memref sig .tc .vmem S6x1 .f32) (h6 : a6.IsWhole) (a7 : Memref sig .tc .vmem S1x1 .f32) (h7 : a7.IsWhole) (a8 : Memref sig .tc .vmem S6x1 .f32) (h8 : a8.IsWhole) (a9 : Memref sig .tc .vmem S6x1 .f32) (h9 : a9.IsWhole) (hc0 : ¬cond0_0 i) (hc1 : cond0_1 i)
    (x0 : Vec F S3x160000 .f32) (x1 : Vec F S3x160000 .f32) (x2 : Vec F S1x160000 .f32) (x3 : Vec F S1x160000 .f32) (x4 : Vec F S6x160000 .i32) (x5 : Vec F S6x1 .f32) (x6 : Vec F S1x1 .f32) (xs0 : Vec F S6x1 .f32) :
    sout0_C_0 c i a1 h1 a2 h2 a3 h3 a4 h4 a5 h5 a6 h6 a7 h7 a8 h8 a9 h9 hc0 hc1 x0 x1 x2 x3 x4 x5 x6 xs0 = step x0 x1 x2 x3 x4 x5 xs0 := by
  unfold sout0_C_0
  rw [View.read_writes_eq_canon _ _ _ (scover0_C_0 c i a1 h1 a2 h2 a3 h3 a4 h4 a5 h5 a6 h6 a7 h7 a8 h8 a9 h9 hc0 hc1 x0 x1 x2 x3 x4 x5 x6 xs0)]
  unfold kernelRun0_C
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S3x160000) hz, View.ld_unit_zero (S := S1x160000) hz,
    View.ld_unit_zero (S := S6x160000) hz, View.ld_unit_zero (S := S6x1) hz, View.ld_unit_zero (S := S1x1) hz,
    View.readCov_unit_zero (S := S6x1) _ hz]

/-- and the output block receives the stepped accumulator times `exp` of the weight. -/
theorem out_C (c : Dev nD) (i : grid0.Coords) (a1 : Memref sig .tc .vmem S3x160000 .f32) (h1 : a1.IsWhole) (a2 : Memref sig .tc .vmem S3x160000 .f32) (h2 : a2.IsWhole) (a3 : Memref sig .tc .vmem S1x160000 .f32) (h3 : a3.IsWhole) (a4 : Memref sig .tc .vmem S1x160000 .f32) (h4 : a4.IsWhole) (a5 : Memref sig .tc .vmem S6x160000 .i32) (h5 : a5.IsWhole) (a6 : Memref sig .tc .vmem S6x1 .f32) (h6 : a6.IsWhole) (a7 : Memref sig .tc .vmem S1x1 .f32) (h7 : a7.IsWhole) (a8 : Memref sig .tc .vmem S6x1 .f32) (h8 : a8.IsWhole) (a9 : Memref sig .tc .vmem S6x1 .f32) (h9 : a9.IsWhole) (hc0 : ¬cond0_0 i) (hc1 : cond0_1 i)
    (x0 : Vec F S3x160000 .f32) (x1 : Vec F S3x160000 .f32) (x2 : Vec F S1x160000 .f32) (x3 : Vec F S1x160000 .f32) (x4 : Vec F S6x160000 .i32) (x5 : Vec F S6x1 .f32) (x6 : Vec F S1x1 .f32) (xs0 : Vec F S6x1 .f32) :
    out0_C_7 c i a1 h1 a2 h2 a3 h3 a4 h4 a5 h5 a6 h6 a7 h7 a8 h8 a9 h9 hc0 hc1 x0 x1 x2 x3 x4 x5 x6 xs0 = k0_pay2 (step x0 x1 x2 x3 x4 x5 xs0) x6 := by
  unfold out0_C_7
  rw [View.read_writes_eq_canon _ _ _ (cover0_C_7 c i a1 h1 a2 h2 a3 h3 a4 h4 a5 h5 a6 h6 a7 h7 a8 h8 a9 h9 hc0 hc1 x0 x1 x2 x3 x4 x5 x6 xs0)]
  unfold kernelRun0_C
  dsimp only
  sl_unfold_words
  rw [View.canon_unit_zero hz]
  simp only [View.readAt_eq_ld, h1.read_unread, h2.read_unread, h3.read_unread, h4.read_unread, h5.read_unread, h6.read_unread,
    h7.read_unread, h9.read_unread, View.ld_unit_zero (S := S3x160000) hz, View.ld_unit_zero (S := S1x160000) hz,
    View.ld_unit_zero (S := S6x160000) hz, View.ld_unit_zero (S := S6x1) hz, View.ld_unit_zero (S := S1x1) hz,
    View.readCov_unit_zero (S := S6x1) _ hz]

end Cert.KernelIdeal.Pieces

end
-- ==== Proof.KAcc.lean ====
/-
  The accumulator across the grid. After point `n` the scratch column holds `accAt n`: the zero column stepped through
  the input blocks of points `0, …, n` in order — by induction on the point, each point's case read off the generated
  frame's contents. At the last point the output block holds that accumulator times `exp` of the weight.
-/
import proofs.«406138_j54004918780081_1_alg».proof.Proof.KPieces

noncomputable section

namespace Cert.KernelIdeal.Acc

open Cert.KernelIdeal Cert.KernelIdeal.Gen Cert.KernelIdeal.Pieces
open Idealize.ShloMosaic Idealize.ShloMosaic.TcCoe Idealize.SL.Sem

variable {F : FTy → Type} [FloatOps F]
variable (m : (ℓ : Loc nD τ sig) → Buf (Elt F) ℓ)

/-- The input blocks of point `t`, at their literal types. -/
abbrev blk0 (c : Dev nD) (t : Fin cfg0.N) : Vec F S3x160000 .f32 := iblk m c 0 t
abbrev blk1 (c : Dev nD) (t : Fin cfg0.N) : Vec F S3x160000 .f32 := iblk m c 1 t
abbrev blk2 (c : Dev nD) (t : Fin cfg0.N) : Vec F S1x160000 .f32 := iblk m c 2 t
abbrev blk3 (c : Dev nD) (t : Fin cfg0.N) : Vec F S1x160000 .f32 := iblk m c 3 t
abbrev blk4 (c : Dev nD) (t : Fin cfg0.N) : Vec F S6x160000 .i32 := iblk m c 4 t
abbrev blk5 (c : Dev nD) (t : Fin cfg0.N) : Vec F S6x1 .f32 := iblk m c 5 t
abbrev blk6 (c : Dev nD) (t : Fin cfg0.N) : Vec F S1x1 .f32 := iblk m c 6 t

/-- The accumulator after point `n`. -/
def accAt (c : Dev nD) : (n : ℕ) → n < cfg0.N → Vec F S6x1 .f32
  | 0, h => step (blk0 m c ⟨0, h⟩) (blk1 m c ⟨0, h⟩) (blk2 m c ⟨0, h⟩) (blk3 m c ⟨0, h⟩) (blk4 m c ⟨0, h⟩) (blk5 m c ⟨0, h⟩) (k0_pay3 (F := F))
  | n + 1, h => step (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩) (accAt c n (Nat.lt_of_succ_lt h))

/-- What the scratch column holds after point `n` is the accumulator. -/
theorem scratch_eq (c : Dev nD) : ∀ (n : ℕ) (h : n < cfg0.N), (outsAt0 m c n h).2 = accAt m c n h
  | 0, h => by
    rw [outsAt0_A m c ⟨0, h⟩ rfl (by show ¬(0 % 25 = 24); decide)]
    dsimp only
    exact scr_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) scM0_0 (Memref.isWhole_whole _) _ _ (blk0 m c ⟨0, h⟩) (blk1 m c ⟨0, h⟩) (blk2 m c ⟨0, h⟩) (blk3 m c ⟨0, h⟩) (blk4 m c ⟨0, h⟩) (blk5 m c ⟨0, h⟩) (blk6 m c ⟨0, h⟩)
  | n + 1, h => by
    have hN : cfg0.N = 25 := N_0
    have h0 : ¬(⟨n + 1, h⟩ : Fin cfg0.N).val % 25 = 0 := by dsimp only; omega
    by_cases h1 : (⟨n + 1, h⟩ : Fin cfg0.N).val % 25 = 24
    · rw [outsAt0_C m c ⟨n + 1, h⟩ h0 h1]
      dsimp only
      refine (scr_C (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) _ _ (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩) (blk6 m c ⟨n + 1, h⟩) _).trans ?_
      show step (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩) (outsAt0 m c n _).2 = step (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩) (accAt m c n _)
      rw [scratch_eq c n]
    · rw [outsAt0_B m c ⟨n + 1, h⟩ h0 h1]
      dsimp only
      refine (scr_B (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) _ _ (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩) (blk6 m c ⟨n + 1, h⟩) _).trans ?_
      show step (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩) (outsAt0 m c n _).2 = step (blk0 m c ⟨n + 1, h⟩) (blk1 m c ⟨n + 1, h⟩) (blk2 m c ⟨n + 1, h⟩) (blk3 m c ⟨n + 1, h⟩) (blk4 m c ⟨n + 1, h⟩) (blk5 m c ⟨n + 1, h⟩) (accAt m c n _)
      rw [scratch_eq c n]

/-- The last point. -/
abbrev tLast : Fin cfg0.N := ⟨24, by rw [show cfg0.N = 25 from N_0]; decide⟩

/-- What the output block holds after the last point: the accumulator times `exp` of the weight. -/
theorem out_last (c : Dev nD) :
    (outsAt0 m c (tLast.val) tLast.isLt).1 = k0_pay2 (accAt m c tLast.val tLast.isLt) (blk6 m c tLast) := by
  rw [outsAt0_C m c tLast (by decide) (by decide)]
  dsimp only
  refine (out_C (F := F) c (grid0.coords tLast) (ms0_0 tLast) (hs0_0 tLast) (ms0_1 tLast) (hs0_1 tLast) (ms0_2 tLast) (hs0_2 tLast) (ms0_3 tLast) (hs0_3 tLast) (ms0_4 tLast) (hs0_4 tLast) (ms0_5 tLast) (hs0_5 tLast) (ms0_6 tLast) (hs0_6 tLast) (ms0_7 tLast) (hs0_7 tLast) scM0_0 (Memref.isWhole_whole _) _ _ (blk0 m c tLast) (blk1 m c tLast) (blk2 m c tLast) (blk3 m c tLast) (blk4 m c tLast) (blk5 m c tLast) (blk6 m c tLast) _).trans ?_
  show k0_pay2 (step (blk0 m c tLast) (blk1 m c tLast) (blk2 m c tLast) (blk3 m c tLast) (blk4 m c tLast) (blk5 m c tLast) (outsAt0 m c 23 _).2) _ = k0_pay2 (step (blk0 m c tLast) (blk1 m c tLast) (blk2 m c tLast) (blk3 m c tLast) (blk4 m c tLast) (blk5 m c tLast) (accAt m c 23 _)) _
  rw [scratch_eq m c 23]

end Cert.KernelIdeal.Acc

end
-- ==== Proof.KFinal.lean ====
/-
  The kernel's run, read: the one write-back of the output window (after the last grid point) puts the output block —
  the accumulator after the last point times `exp` of the weight — into the `[6, 1]` result array, which that block
  covers whole; the reshape after the launch turns it into the `[6]` result; the arguments end unchanged.
-/
import proofs.«406138_j54004918780081_1_alg».proof.Proof.KAcc
import Idealize.ShloMosaic.Lib.Pipeline.Value
import Idealize.ShloMosaic.Lib.StableHlo.Run
import Idealize.ShloMosaic.Lib.Tactic

noncomputable section

namespace Cert.KernelIdeal.Final

open Cert.KernelIdeal Cert.KernelIdeal.Gen Cert.KernelIdeal.Pieces Cert.KernelIdeal.Acc
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The output block after the last point, as contents of the `[6, 1]` result array (its one block IS the array). -/
abbrev outBlock (c : Dev nD) : Buf (Elt F) ((c : Thread nD τ).loc main_v33) :=
  k0_pay2 (accAt m c tLast.val tLast.isLt) (blk6 m c tLast)

/-- The one write-back, at the last point, writes it: block (0, 0) of the array read through zero offsets is the array. -/
theorem flushed_eq (c : Dev nD) (t : Fin cfg0.N) (hf : (cfg0.win 7).flush t = true) :
    (dats m 0 c).flushed 7 t = ((cfg0.win 7).blk t).view.read (Elt F) (outBlock m c) := by
  have hN : cfg0.N = 25 := N_0
  have h24 : t.val = 24 := by have := (flush0_7 t).mp hf; have := t.isLt; omega
  obtain rfl : t = tLast := Fin.ext h24
  show (cfg0.win 7).cut (grid0.coords tLast) ((dats m 0 c).after 7 tLast) = _
  rw [after0_7, out_last]
  have hz' : (fun a => win0_7.index tLast a * main_v33.ty.shape.size a) = fun _ => 0 := funext fun a => by fin_cases a <;> decide
  exact (Memref.read_access_unit_zero (Elt F) main_v33 hz' (fun a => by rw [congrFun hz' a]; simp) (outBlock m c)).symm

/-- So the `[6, 1]` result array ends holding the output block: the last point's block covers it. -/
theorem final_out (c : Dev nD) : (dats m 0 c).arrAt 7 cfg0.N = outBlock m c :=
  (dats m 0 c).arrAt_eq_of_cover 7 (outBlock m c) (flushed_eq m c) fun i =>
    ⟨tLast, (flush0_7 tLast).mpr rfl, by
      show i ∈ ((View.whole main_v33).slice (win0_7.rect tLast)).set
      rw [View.set_slice_whole, Rect.mem_set_unit]
      intro a
      have h0 : (i 0 : Nat) < 6 := (i 0).isLt
      have h1 : (i 1 : Nat) < 1 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 6 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 1 from by decide +kernel]; omega⟩

/-- The reshape after the launch: the `[6]` result is the output block with its unit axis dropped. -/
theorem tail_eq (c : Dev nD) :
    Pipeline.afterTail₀ cfgs (dats m) 0 (V0 m) [hostOps1] c main_v34 = shapeCast S6 (outBlock m c) shapeCasts_S6x1_S6 := by
  unfold Pipeline.afterTail₀
  show StableHlo.after hostOps1 _ (Proc.devRef .tc main_v34) = _
  after_results
  have e : Pipeline.withArrays (cfgs 0).spec c (V0 m c) (fun w => (dats m 0 c).arrAt w (cfgs 0).N) (Proc.devRef .tc main_v33)
      = outBlock m c :=
    (Pipeline.withArrays_arr spec0 launch0.win.arr_inj c _ _ 7).trans (final_out m c)
  rw [e]
  rfl

/-- The run, read: the result at the reshaped output block, the arguments unchanged. -/
theorem run : θ_run defs (onTc (τ := τ) (main (F := F))) ⟨m, fun _ => 0, ρ⟩ (fun r => ∀ c : Dev nD,
      r.2.mem ((c.tc : Thread nD τ).loc main_v34) = shapeCast S6 (outBlock m c) shapeCasts_S6x1_S6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v34 (Pipeline.mem_restRefs_of main_v34 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩) (run_main m ρ)

end Cert.KernelIdeal.Final

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.KValue.lean ====
/-
  One step of the accumulator, read at an index over the extended reals: class `k`'s entry of the accumulator grows by
  the sum over the block's 160000 lanes of that lane's clash term, computed from the block entries — the squared
  differences of the three coordinates summed, the square root of that plus `ε`, the two radii added and the distance
  subtracted, the class tolerance added, the positive part taken and kept where the mask word is non-zero.
-/
import proofs.«406138_j54004918780081_1_alg».proof.Proof.KPieces
import proofs.«406138_j54004918780081_1_alg».proof.Proof.LibKeepdimsColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepValue

open Cert.KernelIdeal Cert.KernelIdeal.Gen Cert.KernelIdeal.Pieces Cert.Lib.KeepdimsColumn
open Idealize.ShloMosaic Idealize.ShloMosaic.ValueIdx

/-- A sum over the three coordinate rows kept as a `[1, L]` row, read at lane `l`. -/
theorem rowsum_apply (v : FVec Ideal S3x160000 .f32) (l : Fin 160000) :
    (shapeCast S1x160000 (multiReduction .add [0] S160000 v 0x00000000#32 reduces_S3x160000_S160000 (.inl rfl) rfl)
      shapeCasts_S160000_S1x160000 : FVec Ideal S1x160000 .f32) (ix2 (0 : Fin 1) l) = ∑ a : Fin 3, v (ix2 a l) := by
  refine (shapeCast_a_1a_apply _ shapeCasts_S160000_S1x160000 (0 : Fin 1) l).trans ?_
  refine (Ideal.multiReduction_add_single v 0x00000000#32 reduces_S3x160000_S160000 (.inl rfl) rfl (ix1 l)).trans ?_
  refine Finset.sum_congr rfl fun a _ => congrArg v (funext fun d => Fin.ext ?_)
  match d with
  | ⟨0, _⟩ => rfl
  | ⟨1, _⟩ => rfl

/-- A sum over the lanes kept as a `[6, 1]` column, read at class `k`. -/
theorem lanesum_apply (v : FVec Ideal S6x160000 .f32) (k : Fin 6) :
    (shapeCast S6x1 (multiReduction .add [1] S6 v 0x00000000#32 reduces_S6x160000_S6 (.inl rfl) rfl)
      shapeCasts_S6_S6x1 : FVec Ideal S6x1 .f32) (ix2 k (0 : Fin 1)) = ∑ l : Fin 160000, v (ix2 k l) := by
  refine (shapeCast_a_a1_apply _ shapeCasts_S6_S6x1 k (0 : Fin 1)).trans ?_
  refine (Ideal.multiReduction_add_single v 0x00000000#32 reduces_S6x160000_S6 (.inl rfl) rfl (ix1 k)).trans ?_
  refine Finset.sum_congr rfl fun l _ => congrArg v (funext fun d => Fin.ext ?_)
  match d with
  | ⟨0, _⟩ => rfl
  | ⟨1, _⟩ => rfl

/-- A vector square root read at an index. -/
theorem sqrt_apply {s : Shape} {φ : FTy} (v : FVec Ideal s φ) (i : s.Idx) : sqrt v i = Ideal.sqrt (v i) := rfl

/-- The row `rsum − dist` read at lane `l`. -/
theorem row_apply (x0 x1 : FVec Ideal S3x160000 .f32) (x2 x3 : FVec Ideal S1x160000 .f32) (l : Fin 160000) :
    (subf (addf x2 x3)
        (sqrt (addf
          (shapeCast S1x160000 (multiReduction .add [0] S160000 (mulf (subf x0 x1) (subf x0 x1)) 0x00000000#32
            reduces_S3x160000_S160000 (.inl rfl) rfl) shapeCasts_S160000_S1x160000)
          (broadcast S1x160000 (FloatOps.ofBits .f32 0x2B8CBCCC#32)))) : FVec Ideal S1x160000 .f32) (ix2 (0 : Fin 1) l)
      = x2 (ix2 (0 : Fin 1) l) + x3 (ix2 (0 : Fin 1) l)
        - Ideal.sqrt ((∑ a : Fin 3, (x0 (ix2 a l) - x1 (ix2 a l)) * (x0 (ix2 a l) - x1 (ix2 a l))) + Ideal.ofBits .f32 0x2B8CBCCC#32) := by
  rw [subf_apply, addf_apply, sqrt_apply, addf_apply, rowsum_apply, broadcast_apply, Ideal.ofBits_def]
  refine congrArg (fun z => x2 (ix2 (0 : Fin 1) l) + x3 (ix2 (0 : Fin 1) l) - Ideal.sqrt (z + Ideal.ofBits .f32 0x2B8CBCCC#32)) ?_
  exact Finset.sum_congr rfl fun a _ => rfl

/-- The masked positive part of `row + tol` read at `(k, l)`: the row at lane `l`, the tolerance column at class `k`. -/
theorem lane_apply (r : FVec Ideal S1x160000 .f32) (x4 : IVec S6x160000 32) (x5 : FVec Ideal S6x1 .f32) (k : Fin 6) (l : Fin 160000) :
    (select (cmpi .ne x4 (constantI S6x160000 32 0#32))
        (maximumf (addf (broadcastTo S6x160000 r broadcasts_S1x160000_S6x160000) (broadcastTo S6x160000 x5 broadcasts_S6x1_S6x160000))
          (broadcast S6x160000 (FloatOps.ofBits .f32 0x00000000#32)))
        (broadcast S6x160000 (FloatOps.ofBits .f32 0x00000000#32)) : FVec Ideal S6x160000 .f32) (ix2 k l)
      = Scalar.select (IntOp.cmpi .ne (x4 (ix2 k l)) 0#32)
          (max (r (ix2 (0 : Fin 1) l) + x5 (ix2 k (0 : Fin 1))) (Ideal.ofBits .f32 0x00000000#32)) (Ideal.ofBits .f32 0x00000000#32) := by
  rw [select_apply, maximumf_apply, addf_apply, broadcastTo_1b_ab_apply, broadcastTo_a1_ab_apply, broadcast_apply,
    Ideal.ofBits_def]
  rfl

/-- One lane's clash term, from the block entries. -/
def laneTerm (x0 x1 : Vec Ideal S3x160000 .f32) (x2 x3 : Vec Ideal S1x160000 .f32) (x4 : Vec Ideal S6x160000 .i32)
    (x5 : Vec Ideal S6x1 .f32) (k : Fin 6) (l : Fin 160000) : EReal :=
  Scalar.select (IntOp.cmpi .ne (x4 (ix2 k l)) 0#32)
    (max (x2 (ix2 (0 : Fin 1) l) + x3 (ix2 (0 : Fin 1) l)
        - Ideal.sqrt ((∑ a : Fin 3, (x0 (ix2 a l) - x1 (ix2 a l)) * (x0 (ix2 a l) - x1 (ix2 a l))) + Ideal.ofBits .f32 0x2B8CBCCC#32)
        + x5 (ix2 k (0 : Fin 1)))
      (Ideal.ofBits .f32 0x00000000#32))
    (Ideal.ofBits .f32 0x00000000#32)

/-- THE STEP READ AT CLASS `k`: the accumulator's entry plus the sum of the lanes' clash terms. -/
theorem step_apply (x0 x1 : Vec Ideal S3x160000 .f32) (x2 x3 : Vec Ideal S1x160000 .f32) (x4 : Vec Ideal S6x160000 .i32)
    (x5 : Vec Ideal S6x1 .f32) (acc : Vec Ideal S6x1 .f32) (k : Fin 6) :
    step x0 x1 x2 x3 x4 x5 acc (ix2 k (0 : Fin 1))
      = acc (ix2 k (0 : Fin 1)) + ∑ l : Fin 160000, laneTerm x0 x1 x2 x3 x4 x5 k l := by
  unfold step k0_pay1 k0_pay4
  simp only [shapeCast_self]
  refine congrArg (acc (ix2 k (0 : Fin 1)) + ·) ((lanesum_apply _ k).trans (Finset.sum_congr rfl fun l _ => ?_))
  refine (lane_apply _ x4 x5 k l).trans ?_
  unfold laneTerm
  rw [row_apply]

end Cert.KernelIdeal.StepValue

end
-- ==== Proof.KHostCoords.lean ====
/-
  The arrays the kernel's launch finds for its two coordinate operands, read at an index: under the range hypothesis on the pair indices the out-of-range fill never applies, and entry `(a, j)` is coordinate `a` of the atom the pair's endpoint names.

  Each operand is a take along the columns of the transposed coordinate table by one column of the pair array: the index
  word is wrapped (`i < 0 ? i + 100000 : i`), both range tests `0 ≤ ·` and `· ≤ 99999` of the wrapped word are reduced
  by `and` over a unit axis into a mask, and the mask selects between the gathered column and a fill word. A word in
  `[-100000, 100000)` wraps into `[0, 100000)`, so the mask is set and the gather's own clamp is the identity's.
-/
import proofs.«406138_j54004918780081_1_alg».proof.Proof.Gen.KernelIdeal.Frame
import proofs.«406138_j54004918780081_1_alg».proof.Proof.ClashSpec
import proofs.«406138_j54004918780081_1_alg».proof.Proof.LibGatherRows
import proofs.«406138_j54004918780081_1_alg».proof.Proof.LibGatherVec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValues

open Cert.KernelIdeal Cert.KernelIdeal.Gen Cert.Clash
open Idealize.ShloMosaic Idealize.ShloMosaic.TcCoe Idealize.SL.Sem Idealize.ShloMosaic.ValueIdx Idealize.ShloMosaic.RowGather

variable (m : (ℓ : Loc nD τ sig) → Buf (Elt Ideal) ℓ) (c : Dev nD)

/-! ### The take as one function of the table and the index words -/

/-- A fold of one-bit `and` over words that are all set, from a set word, is set. -/
theorem fold_andi_one {ι : Type} [DecidableEq ι] (s : Finset ι) (g : ι → BitVec 1) (hg : ∀ k, g k = 1#1) :
    s.fold IntOp.andi 1#1 g = 1#1 := by
  induction s using Finset.induction_on with
  | empty => rfl
  | insert k s hk ih => rw [Finset.fold_insert hk, ih, hg]; rfl

/-- The index column a take gathers by: each index word wrapped (a negative word counts from the end), as a `[P, 1]` array. -/
def takeIdx (p : IVec S4000000 32) : IVec S4000000x1 32 :=
  broadcastInDim S4000000x1 ![0] bcast_S4000000_S4000000x1_0
    (select (cmpi .slt p (broadcastInDim S4000000 ![] bcast_S_S4000000 (constantI S_ 32 0#32)))
      (addi p (broadcastInDim S4000000 ![] bcast_S_S4000000 (constantI S_ 32 100000#32))) p)

/-- Row `j` of the index column is the wrap of index word `j`. -/
theorem takeIdx_apply (p : IVec S4000000 32) (i : S4000000x1.Idx) (j : Fin 4000000) (hi : (i 0).val = j.val) :
    takeIdx p i = wrap (p (ix1 j)) := by
  unfold takeIdx
  refine (broadcastInDim_apply _ bcast_S4000000_S4000000x1_0 _ i (ix1 j) (fun a => match a with
    | ⟨0, _⟩ => by show j.val = if (4000000 : Nat) = 1 then 0 else (i 0).val; rw [if_neg (by decide), hi])).trans ?_
  rw [select_apply]
  show Scalar.select (IntOp.cmpi .slt (p (ix1 j)) (broadcastInDim S4000000 ![] bcast_S_S4000000 (constantI S_ 32 0#32) (ix1 j)))
      (IntOp.addi (p (ix1 j)) (broadcastInDim S4000000 ![] bcast_S_S4000000 (constantI S_ 32 100000#32) (ix1 j))) (p (ix1 j)) = _
  rw [broadcastInDim_apply _ bcast_S_S4000000 (constantI S_ 32 0#32) (ix1 j) ix0 (fun a => a.elim0),
    broadcastInDim_apply _ bcast_S_S4000000 (constantI S_ 32 100000#32) (ix1 j) ix0 (fun a => a.elim0)]
  rfl

/-- The two range tests of the wrapped index, `0 ≤ ·` and `· ≤ 99999`, joined. -/
def inRange (p : IVec S4000000 32) : IVec S4000000x1 1 :=
  andi (cmpi .sge (takeIdx p) (broadcastInDim S4000000x1 ![] bcast_S_S4000000x1 (constantI S_ 32 0#32)))
    (cmpi .sle (takeIdx p) (broadcastInDim S4000000x1 ![0, 1] bcast_S1x1_S4000000x1_0_1
      (broadcastInDim S1x1 ![1] bcast_S1_S1x1_1 (constantI S1 32 99999#32))))

/-- Where the index word lies in `[-100000, 100000)` both range tests of its wrap hold. -/
theorem inRange_apply (p : IVec S4000000 32) (i : S4000000x1.Idx) (j : Fin 4000000) (hi : (i 0).val = j.val)
    (h1 : -100000 ≤ (p (ix1 j)).toInt) (h2 : (p (ix1 j)).toInt < 100000) : inRange p i = 1#1 := by
  show IntOp.andi (IntOp.cmpi .sge (takeIdx p i) (broadcastInDim S4000000x1 ![] bcast_S_S4000000x1 (constantI S_ 32 0#32) i))
    (IntOp.cmpi .sle (takeIdx p i) (broadcastInDim S4000000x1 ![0, 1] bcast_S1x1_S4000000x1_0_1
      (broadcastInDim S1x1 ![1] bcast_S1_S1x1_1 (constantI S1 32 99999#32)) i)) = 1#1
  rw [takeIdx_apply p i j hi,
    broadcastInDim_apply _ bcast_S_S4000000x1 (constantI S_ 32 0#32) i ix0 (fun a => a.elim0),
    broadcastInDim_apply _ bcast_S1x1_S4000000x1_0_1 _ i (ix2 (0 : Fin 1) (0 : Fin 1)) (fun a => match a with
      | ⟨0, _⟩ => by show (0 : Nat) = if (1 : Nat) = 1 then 0 else (i 0).val; rw [if_pos rfl]
      | ⟨1, _⟩ => by show (0 : Nat) = if (1 : Nat) = 1 then 0 else (i 1).val; rw [if_pos rfl]),
    broadcastInDim_apply _ bcast_S1_S1x1_1 (constantI S1 32 99999#32) (ix2 (0 : Fin 1) (0 : Fin 1)) (ix1 (0 : Fin 1)) (fun a => match a with
      | ⟨0, _⟩ => by show (0 : Nat) = if (1 : Nat) = 1 then 0 else (0 : Nat); rw [if_pos rfl])]
  show IntOp.andi (IntOp.cmpi .sge (wrap (p (ix1 j))) 0#32) (IntOp.cmpi .sle (wrap (p (ix1 j))) 99999#32) = 1#1
  rw [(wrap_inb _ h1 h2).1, (wrap_inb _ h1 h2).2]
  rfl

/-- A take along the columns of a `[3, N]` table with the out-of-range fill: the gathered column where the wrapped index
    passes both range tests, the fill word elsewhere. -/
def takeCols (x : FVec Ideal S3x100000 .f32) (p : IVec S4000000 32) : FVec Ideal S3x4000000 .f32 :=
  select (broadcastInDim S3x4000000 ![1] bcast_S4000000_S3x4000000_1
      (Host.reduce IntOp.andi (inRange p) (constantI S_ 1 1#1) reducesTo_S4000000x1_S4000000_d1 h_S_))
    (Host.gather gather_S3x100000_S4000000x1_S3x4000000_0_1_n_n_1_1_31 x (takeIdx p))
    (broadcastInDim S3x4000000 ![] bcast_S_S3x4000000 (constant (F := Ideal) S_ .f32 0x7FC00000#32))

/-- Where the index word lies in `[-100000, 100000)` the fill never applies: entry `(a, j)` of the take is the table's
    entry `a` of the column the wrapped, clamped word names. -/
theorem takeCols_apply (x : FVec Ideal S3x100000 .f32) (p : IVec S4000000 32) (a : Fin 3) (j : Fin 4000000)
    (h1 : -100000 ≤ (p (ix1 j)).toInt) (h2 : (p (ix1 j)).toInt < 100000) :
    takeCols x p (ix2 a j) = x (ix2 a (clampRow 100000 (by decide) (wrap (p (ix1 j))))) := by
  unfold takeCols
  rw [select_apply]
  have hmask : broadcastInDim S3x4000000 ![1] bcast_S4000000_S3x4000000_1
      (Host.reduce IntOp.andi (inRange p) (constantI S_ 1 1#1) reducesTo_S4000000x1_S4000000_d1 h_S_) (ix2 a j) = 1#1 := by
    refine (broadcastInDim_apply _ bcast_S4000000_S3x4000000_1 _ (ix2 a j) (ix1 j) (fun b => match b with
      | ⟨0, _⟩ => by show j.val = if (4000000 : Nat) = 1 then 0 else j.val; rw [if_neg (by decide)])).trans ?_
    rw [Host.reduce_eq_fold_single IntOp.andi (inRange p) (constantI S_ 1 1#1) reducesTo_S4000000x1_S4000000_d1 (by decide) h_S_ (ix1 j)]
    exact fold_andi_one _ _ (fun k => inRange_apply p _ j rfl h1 h2)
  rw [hmask, select_one]
  refine (gather_cols_apply (by decide) _ x (takeIdx p) j a).trans ?_
  rw [takeIdx_apply p _ j rfl]

/-- One column of the pair array as a rank-1 array (the slice of the column, reshaped): entry `j` is the pair's endpoint word. -/
theorem pairCol_apply (pairs : IVec S4000000x2 32) (o : Nat) (s : Fin 2) (ho : s.val = o)
    (h : S4000000x2.Slices ![0, o] S4000000x1) (j : Fin 4000000) :
    shapeCast S4000000 (extractStridedSlice S4000000x1 ![0, o] pairs h) shapeCasts_S4000000x1_S4000000 (ix1 j)
      = pairs (ix2 j s) := by
  refine (shapeCast_apply _ shapeCasts_S4000000x1_S4000000 (ix1 j) (ix2 j (0 : Fin 1)) ?_).trans ?_
  · rw [Shape.rowMajor_val_two, Shape.rowMajor_val_one]
    show j.val * 1 + 0 = j.val
    omega
  · exact slice2_axis1_apply o pairs h j (0 : Fin 1) s (by rw [ho]; rfl)

/-- The take of the transposed coordinates by one column of in-range pair words, at `(a, j)`: coordinate `a` of the atom
    the pair's endpoint names. -/
theorem take_pairs_apply (coords : Coords) (pairs : Pairs) (hr : PairsInRange pairs) (s : Fin 2) (col : IVec S4000000 32)
    (hcol : ∀ j : Fin 4000000, col (ix1 j) = pairs (ix2 j s)) (a : Fin 3) (j : Fin 4000000) :
    takeCols (transpose S3x100000 [1, 0] coords transposes_S100000x3_S3x100000_1_0) col (ix2 a j)
      = coords (ix2 (atom pairs j s) a) := by
  rw [takeCols_apply _ col a j (by rw [hcol]; exact (hr _).1) (by rw [hcol]; exact (hr _).2), hcol]
  exact transpose_ix2_apply coords transposes_S100000x3_S3x100000_1_0 a _

/-! ### The contents before the launch, stretch by stretch -/

/-- The four stretches of host operations before the launch run one after the other. -/
theorem V0_split : V0 (F := Ideal) m c
    = StableHlo.after hostOps0_3 (StableHlo.after hostOps0_2 (StableHlo.after hostOps0_1 (StableHlo.after hostOps0 (fun b => m (c, b))))) := by
  show StableHlo.after (List.flatten [hostOps0, hostOps0_1, hostOps0_2, hostOps0_3]) (fun b => m (c, b)) = _
  rw [List.flatten_cons, List.flatten_cons, List.flatten_cons, List.flatten_cons, List.flatten_nil, List.append_nil,
    StableHlo.after_append, StableHlo.after_append, StableHlo.after_append]

/-- Contents moved to a reference's own buffer type and back are the contents. -/
theorem ofBuf_toBuf' {T : BufTy} (r : Ref sig .tc) (h1 h1' : r.ty = T) (h2 h2' : r.space ≠ .host) (h3 h3' : r.isScoped = false)
    (v : T.Contents (Elt Ideal)) :
    (StableHlo.TRef.of r h1 h2 h3).ofBuf ((StableHlo.TRef.of r h1' h2' h3').toBuf v) = v := by
  subst h1
  rfl

/-- A buffer's contents read at the buffer's printed type are the contents. -/
theorem ofBuf_v1 (t : main_v1.ty.Contents (Elt Ideal)) :
    (StableHlo.TRef.of main_v1 : StableHlo.TRef sig ⟨S4000000, .i32⟩).ofBuf t = t := rfl
theorem ofBuf_v3 (t : main_v3.ty.Contents (Elt Ideal)) :
    (StableHlo.TRef.of main_v3 : StableHlo.TRef sig ⟨S4000000, .i32⟩).ofBuf t = t := rfl
theorem ofBuf_v4 (t : main_v4.ty.Contents (Elt Ideal)) :
    (StableHlo.TRef.of main_v4 : StableHlo.TRef sig ⟨S3x100000, .f32⟩).ofBuf t = t := rfl
theorem ofBuf_v5 (t : main_v5.ty.Contents (Elt Ideal)) :
    (StableHlo.TRef.of main_v5 : StableHlo.TRef sig ⟨S3x4000000, .f32⟩).ofBuf t = t := rfl
theorem ofBuf_v6 (t : main_v6.ty.Contents (Elt Ideal)) :
    (StableHlo.TRef.of main_v6 : StableHlo.TRef sig ⟨S3x4000000, .f32⟩).ofBuf t = t := rfl

section Stretches
variable (W : Valuation τ sig (Elt Ideal))

/-- The first stretch: the two endpoint columns of the pair array and the transposed coordinates. -/
theorem after0_v1 : (StableHlo.after hostOps0 W (Proc.devRef .tc main_v1) : S4000000.Idx → BitVec 32)
    = shapeCast S4000000 (extractStridedSlice S4000000x1 ![0, 0] (W (Proc.devRef .tc main_arg5)) slices_S4000000x2_S4000000x1_0_0) shapeCasts_S4000000x1_S4000000 := by
  simp only [Gen.hostOps0]
  after_results_simp
  rfl
theorem after0_v3 : (StableHlo.after hostOps0 W (Proc.devRef .tc main_v3) : S4000000.Idx → BitVec 32)
    = shapeCast S4000000 (extractStridedSlice S4000000x1 ![0, 1] (W (Proc.devRef .tc main_arg5)) slices_S4000000x2_S4000000x1_0_1) shapeCasts_S4000000x1_S4000000 := by
  simp only [Gen.hostOps0]
  after_results_simp
  rfl
theorem after0_v4 : (StableHlo.after hostOps0 W (Proc.devRef .tc main_v4) : S3x100000.Idx → EReal)
    = transpose S3x100000 [1, 0] (W (Proc.devRef .tc main_arg0)) transposes_S100000x3_S3x100000_1_0 := by
  simp only [Gen.hostOps0]
  after_results_simp

/-- The second stretch is the first take; it leaves the second column and the transposed coordinates as they were. -/
theorem after1_v5 : (StableHlo.after hostOps0_1 W (Proc.devRef .tc main_v5) : S3x4000000.Idx → EReal)
    = takeCols (W (Proc.devRef .tc main_v4)) (W (Proc.devRef .tc main_v1)) := by
  have h : (StableHlo.TRef.of main_v5 : StableHlo.TRef sig ⟨S3x4000000, .f32⟩).ofBuf (StableHlo.after hostOps0_1 W (Proc.devRef .tc main_v5))
      = takeCols ((StableHlo.TRef.of main_v4 : StableHlo.TRef sig ⟨S3x100000, .f32⟩).ofBuf (W (Proc.devRef .tc main_v4)))
          ((StableHlo.TRef.of main_v1 : StableHlo.TRef sig ⟨S4000000, .i32⟩).ofBuf (W (Proc.devRef .tc main_v1))) := by
    simp only [Gen.hostOps0_1]
    after_results_simp
    simp only [ofBuf_toBuf']
    unfold takeCols inRange takeIdx
    rfl
  rw [ofBuf_v5, ofBuf_v4, ofBuf_v1] at h
  exact h
theorem after1_v3 : StableHlo.after hostOps0_1 W (Proc.devRef .tc main_v3) = W (Proc.devRef .tc main_v3) := by
  simp only [Gen.hostOps0_1]
  after_results_simp
theorem after1_v4 : StableHlo.after hostOps0_1 W (Proc.devRef .tc main_v4) = W (Proc.devRef .tc main_v4) := by
  simp only [Gen.hostOps0_1]
  after_results_simp

/-- The third stretch is the second take; it leaves the first take's result as it was. -/
theorem after2_v6 : (StableHlo.after hostOps0_2 W (Proc.devRef .tc main_v6) : S3x4000000.Idx → EReal)
    = takeCols (W (Proc.devRef .tc main_v4)) (W (Proc.devRef .tc main_v3)) := by
  have h : (StableHlo.TRef.of main_v6 : StableHlo.TRef sig ⟨S3x4000000, .f32⟩).ofBuf (StableHlo.after hostOps0_2 W (Proc.devRef .tc main_v6))
      = takeCols ((StableHlo.TRef.of main_v4 : StableHlo.TRef sig ⟨S3x100000, .f32⟩).ofBuf (W (Proc.devRef .tc main_v4)))
          ((StableHlo.TRef.of main_v3 : StableHlo.TRef sig ⟨S4000000, .i32⟩).ofBuf (W (Proc.devRef .tc main_v3))) := by
    simp only [Gen.hostOps0_2]
    after_results_simp
    simp only [ofBuf_toBuf']
    unfold takeCols inRange takeIdx
    rfl
  rw [ofBuf_v6, ofBuf_v4, ofBuf_v3] at h
  exact h
theorem after2_v5 : StableHlo.after hostOps0_2 W (Proc.devRef .tc main_v5) = W (Proc.devRef .tc main_v5) := by
  simp only [Gen.hostOps0_2]
  after_results_simp

/-- The last stretch writes neither take's result. -/
theorem after3_v5 : StableHlo.after hostOps0_3 W (Proc.devRef .tc main_v5) = W (Proc.devRef .tc main_v5) := by
  simp only [Gen.hostOps0_3]
  after_results_simp
theorem after3_v6 : StableHlo.after hostOps0_3 W (Proc.devRef .tc main_v6) = W (Proc.devRef .tc main_v6) := by
  simp only [Gen.hostOps0_3]
  after_results_simp

end Stretches

/-- Operand 0 of the launch is the take of the transposed coordinates by the first endpoints' column. -/
theorem V_main_v5 : (V m c main_v5 : S3x4000000.Idx → EReal)
    = takeCols (transpose S3x100000 [1, 0] (m ((c : Thread nD τ).loc main_arg0)) transposes_S100000x3_S3x100000_1_0)
        (shapeCast S4000000 (extractStridedSlice S4000000x1 ![0, 0] (m ((c : Thread nD τ).loc main_arg5)) slices_S4000000x2_S4000000x1_0_0)
          shapeCasts_S4000000x1_S4000000) := by
  show (V0 m c (Proc.devRef .tc main_v5) : S3x4000000.Idx → EReal) = _
  rw [V0_split, after3_v5, after2_v5, after1_v5, after0_v4, after0_v1]

/-- Operand 1 of the launch is the take of the transposed coordinates by the second endpoints' column. -/
theorem V_main_v6 : (V m c main_v6 : S3x4000000.Idx → EReal)
    = takeCols (transpose S3x100000 [1, 0] (m ((c : Thread nD τ).loc main_arg0)) transposes_S100000x3_S3x100000_1_0)
        (shapeCast S4000000 (extractStridedSlice S4000000x1 ![0, 1] (m ((c : Thread nD τ).loc main_arg5)) slices_S4000000x2_S4000000x1_0_1)
          shapeCasts_S4000000x1_S4000000) := by
  show (V0 m c (Proc.devRef .tc main_v6) : S3x4000000.Idx → EReal) = _
  rw [V0_split, after3_v6, after2_v6, after1_v4, after1_v3, after0_v4, after0_v3]

/-- Operand 0 of the launch (the first endpoints' coordinates, `[3, P]`) at `(a, j)`. -/
theorem v5_apply (hr : PairsInRange (m ((c : Thread nD τ).loc main_arg5))) (a : Fin 3) (j : Fin 4000000) :
    (V m c main_v5 : S3x4000000.Idx → EReal) (ix2 a j)
      = (m ((c : Thread nD τ).loc main_arg0) : S100000x3.Idx → EReal) (ix2 (atom (m ((c : Thread nD τ).loc main_arg5)) j 0) a) := by
  rw [V_main_v5 m c]
  exact take_pairs_apply _ _ hr 0 _ (fun j => pairCol_apply _ 0 0 rfl slices_S4000000x2_S4000000x1_0_0 j) a j

/-- Operand 1 of the launch (the second endpoints' coordinates) at `(a, j)`. -/
theorem v6_apply (hr : PairsInRange (m ((c : Thread nD τ).loc main_arg5))) (a : Fin 3) (j : Fin 4000000) :
    (V m c main_v6 : S3x4000000.Idx → EReal) (ix2 a j)
      = (m ((c : Thread nD τ).loc main_arg0) : S100000x3.Idx → EReal) (ix2 (atom (m ((c : Thread nD τ).loc main_arg5)) j 1) a) := by
  rw [V_main_v6 m c]
  exact take_pairs_apply _ _ hr 1 _ (fun j => pairCol_apply _ 1 1 rfl slices_S4000000x2_S4000000x1_0_1 j) a j

end Cert.KernelIdeal.HostValues

end
-- ==== Proof.KHostRadii.lean ====
/-
  The arrays the kernel's launch finds for its radius, tolerance, weight and mask operands, read at an index.

  The radii operand of endpoint `s` is built by two gathers. First every atom's radius: the atom's name word wrapped
  into the radius table (`n < 0 ? n + 1500 : n`) and the table gathered at it (a gather clamps its index into the
  table), a vector `[100000]`. Then every pair's: column `s` of the pair table as a vector `[P]`, each word wrapped
  into the atom range (`i < 0 ? i + 100000 : i`), the atoms' radii gathered at it (clamping again), and the result
  laid out as a row `[1, P]`. Read at `(0, j)` that row is `radii[hashRow (atom j s)]`: the two clamps are the ones
  the specification's `atom` and `hashRow` are defined with, so no range hypothesis is needed.
  The tolerances and the weight are reshaped (`[6] → [6, 1]`, `[1] → [1, 1]`); the masks are widened from bits to words.
-/
import proofs.«406138_j54004918780081_1_alg».proof.Proof.Gen.KernelIdeal.Frame
import proofs.«406138_j54004918780081_1_alg».proof.Proof.ClashSpec
import proofs.«406138_j54004918780081_1_alg».proof.Proof.LibGatherRows
import proofs.«406138_j54004918780081_1_alg».proof.Proof.LibGatherVec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValues

open Cert.KernelIdeal Cert.KernelIdeal.Gen Cert.Clash
open Idealize.ShloMosaic Idealize.ShloMosaic.TcCoe Idealize.SL.Sem Idealize.ShloMosaic.ValueIdx Idealize.ShloMosaic.RowGather
open Idealize.ShloMosaic.StableHlo

/-! ## Layout operations at an index, over literal coordinates -/

section Layout
variable {α : Type}

/-- A vector `[n]` laid out as a column `[n, 1]` reads, at `(a, 0)`, the vector at `a`. -/
theorem bcast_col_apply {n : Nat} (hn : n ≠ 1)
    (h : (⟨1, ![n]⟩ : Shape).BroadcastsInDim ⟨2, ![n, 1]⟩ (![0] : Fin 1 → Fin 2))
    (x : (⟨1, ![n]⟩ : Shape).Idx → α) (a : Fin n) :
    broadcastInDim ⟨2, ![n, 1]⟩ ![0] h x (ix2 a (0 : Fin 1)) = x (ix1 a) :=
  broadcastInDim_apply _ h x (ix2 a (0 : Fin 1)) (ix1 a) (fun d => match d with
    | ⟨0, _⟩ => by show a.val = if n = 1 then 0 else a.val; rw [if_neg hn])

/-- A vector `[n]` laid out as a row `[1, n]` reads, at `(0, a)`, the vector at `a`. -/
theorem bcast_row_apply {n : Nat} (hn : n ≠ 1)
    (h : (⟨1, ![n]⟩ : Shape).BroadcastsInDim ⟨2, ![1, n]⟩ (![1] : Fin 1 → Fin 2))
    (x : (⟨1, ![n]⟩ : Shape).Idx → α) (a : Fin n) :
    broadcastInDim ⟨2, ![1, n]⟩ ![1] h x (ix2 (0 : Fin 1) a) = x (ix1 a) :=
  broadcastInDim_apply _ h x (ix2 (0 : Fin 1) a) (ix1 a) (fun d => match d with
    | ⟨0, _⟩ => by show a.val = if n = 1 then 0 else a.val; rw [if_neg hn])

/-- A column `[n, 1]` flattened to a vector `[n]` reads, at `a`, the column at `(a, 0)`: the same row-major position. -/
theorem reshape_col_apply {n : Nat} (h : (⟨2, ![n, 1]⟩ : Shape).ShapeCasts ⟨1, ![n]⟩)
    (y : (⟨2, ![n, 1]⟩ : Shape).Idx → α) (a : Fin n) :
    shapeCast ⟨1, ![n]⟩ y h (ix1 a) = y (ix2 a (0 : Fin 1)) :=
  shapeCast_apply y h (ix1 a) (ix2 a (0 : Fin 1))
    (by rw [Shape.rowMajor_val_two, Shape.rowMajor_val_one]; show a.val * 1 + 0 = a.val; omega)

/-- A vector `[n]` reshaped to a column `[n, 1]` reads, at `(a, 0)`, the vector at `a`. -/
theorem reshape_vec_apply {n : Nat} (h : (⟨1, ![n]⟩ : Shape).ShapeCasts ⟨2, ![n, 1]⟩)
    (x : (⟨1, ![n]⟩ : Shape).Idx → α) (a : Fin n) :
    shapeCast ⟨2, ![n, 1]⟩ x h (ix2 a (0 : Fin 1)) = x (ix1 a) :=
  shapeCast_apply x h (ix2 a (0 : Fin 1)) (ix1 a)
    (by rw [Shape.rowMajor_val_one, Shape.rowMajor_val_two]; show a.val = a.val * 1 + 0; omega)

/-- The first column of a two-column table, cut out as a column `[n, 1]`, at `(a, 0)`. -/
theorem slice_col0_apply {n : Nat} (h : (⟨2, ![n, 2]⟩ : Shape).Slices ![0, 0] ⟨2, ![n, 1]⟩)
    (x : (⟨2, ![n, 2]⟩ : Shape).Idx → α) (a : Fin n) :
    extractStridedSlice ⟨2, ![n, 1]⟩ ![0, 0] x h (ix2 a (0 : Fin 1)) = x (ix2 a (0 : Fin 2)) :=
  extractStridedSlice_apply ![0, 0] x h (ix2 a (0 : Fin 1)) (ix2 a (0 : Fin 2)) (fun d => match d with
    | ⟨0, _⟩ => by show a.val = 0 + a.val; omega
    | ⟨1, _⟩ => by show (0 : Nat) = 0 + 0; omega)

/-- The second column of a two-column table, cut out as a column `[n, 1]`, at `(a, 0)`. -/
theorem slice_col1_apply {n : Nat} (h : (⟨2, ![n, 2]⟩ : Shape).Slices ![0, 1] ⟨2, ![n, 1]⟩)
    (x : (⟨2, ![n, 2]⟩ : Shape).Idx → α) (a : Fin n) :
    extractStridedSlice ⟨2, ![n, 1]⟩ ![0, 1] x h (ix2 a (0 : Fin 1)) = x (ix2 a (1 : Fin 2)) :=
  extractStridedSlice_apply ![0, 1] x h (ix2 a (0 : Fin 1)) (ix2 a (1 : Fin 2)) (fun d => match d with
    | ⟨0, _⟩ => by show a.val = 0 + a.val; omega
    | ⟨1, _⟩ => by show (1 : Nat) = 1 + 0; omega)

end Layout

/-! ## The radii operand as one term of the argument arrays -/

section Terms
variable (radii : Radii) (names : Names)

/-- Every atom's radius: the radius table gathered at the atoms' wrapped name words, a vector `[100000]`. -/
def atomRadii : FVec Ideal S100000 .f32 :=
  Host.gather gather_S1500_S100000x1_S100000_n_0_n_n_0_1_1 radii
    (broadcastInDim S100000x1 ![0] bcast_S100000_S100000x1_0
      (select (cmpi .slt names (broadcastInDim S100000 ![] bcast_S_S100000 (constantI S_ 32 0#32)))
        (addi names (broadcastInDim S100000 ![] bcast_S_S100000 (constantI S_ 32 1500#32)))
        names))

/-- Atom `a`'s radius is the table's entry at the atom's hashed row. -/
theorem atomRadii_apply (a : Fin 100000) : atomRadii radii names (ix1 a) = radii (ix1 (hashRow names a)) := by
  unfold atomRadii
  refine (gather_vec_apply (by decide) gather_S1500_S100000x1_S100000_n_0_n_n_0_1_1_wf radii _ a).trans ?_
  rw [bcast_col_apply (n := 100000) (by decide)]
  rfl

/-- An endpoint column of the pair table as a vector `[P]`: the column cut out at offset `off`, flattened. -/
def endpointCol (off : Fin 2 → Nat) (h : S4000000x2.Slices off S4000000x1) (pairs : Pairs) : IVec S4000000 32 :=
  shapeCast S4000000 (extractStridedSlice S4000000x1 off pairs h) shapeCasts_S4000000x1_S4000000

theorem endpointCol0_apply (pairs : Pairs) (j : Fin 4000000) :
    endpointCol ![0, 0] slices_S4000000x2_S4000000x1_0_0 pairs (ix1 j) = pairs (ix2 j (0 : Fin 2)) := by
  unfold endpointCol
  rw [reshape_col_apply, slice_col0_apply]

theorem endpointCol1_apply (pairs : Pairs) (j : Fin 4000000) :
    endpointCol ![0, 1] slices_S4000000x2_S4000000x1_0_1 pairs (ix1 j) = pairs (ix2 j (1 : Fin 2)) := by
  unfold endpointCol
  rw [reshape_col_apply, slice_col1_apply]

/-- The radii of the atoms an index column names, as a row `[1, P]`: each word wrapped into the atom range, the
    atoms' radii gathered at it. -/
def radiusRow (col : IVec S4000000 32) : FVec Ideal S1x4000000 .f32 :=
  broadcastInDim S1x4000000 ![1] bcast_S4000000_S1x4000000_1
    (Host.gather gather_S100000_S4000000x1_S4000000_n_0_n_n_0_1_1 (atomRadii radii names)
      (broadcastInDim S4000000x1 ![0] bcast_S4000000_S4000000x1_0
        (select (cmpi .slt col (broadcastInDim S4000000 ![] bcast_S_S4000000 (constantI S_ 32 0#32)))
          (addi col (broadcastInDim S4000000 ![] bcast_S_S4000000 (constantI S_ 32 100000#32)))
          col)))

/-- Entry `(0, j)` of that row: the radius of the atom that word `j` of the column names once wrapped and clamped. -/
theorem radiusRow_apply (col : IVec S4000000 32) (j : Fin 4000000) :
    radiusRow radii names col (ix2 (0 : Fin 1) j)
      = radii (ix1 (hashRow names (clampRow 100000 (by decide) (wrap (col (ix1 j)))))) := by
  unfold radiusRow
  rw [bcast_row_apply (n := 4000000) (by decide)]
  refine (gather_vec_apply (by decide) gather_S100000_S4000000x1_S4000000_n_0_n_n_0_1_1_wf (atomRadii radii names) _ j).trans ?_
  rw [atomRadii_apply, bcast_col_apply (n := 4000000) (by decide)]
  rfl

end Terms

/-! ## The launch's operands -/

variable (m : (ℓ : Loc nD τ sig) → Buf (Elt Ideal) ℓ) (c : Dev nD)

/-- Operand 2 as a term of the arguments: the radii row of the first endpoint column. -/
theorem v21_term :
    (V m c main_v21 : S1x4000000.Idx → EReal)
      = radiusRow (m ((c : Thread nD τ).loc main_arg1)) (m ((c : Thread nD τ).loc main_arg4))
          (endpointCol ![0, 0] slices_S4000000x2_S4000000x1_0_0 (m ((c : Thread nD τ).loc main_arg5))) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

/-- Operand 3 as a term of the arguments: the radii row of the second endpoint column. -/
theorem v29_term :
    (V m c main_v29 : S1x4000000.Idx → EReal)
      = radiusRow (m ((c : Thread nD τ).loc main_arg1)) (m ((c : Thread nD τ).loc main_arg4))
          (endpointCol ![0, 1] slices_S4000000x2_S4000000x1_0_1 (m ((c : Thread nD τ).loc main_arg5))) := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

/-- Operand 5 as a term of the arguments: the tolerances reshaped to a column. -/
theorem v30_term :
    (V m c main_v30 : S6x1.Idx → EReal)
      = shapeCast S6x1 (m ((c : Thread nD τ).loc main_arg2) : S6.Idx → EReal) shapeCasts_S6_S6x1 := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

/-- Operand 6 as a term of the arguments: the weight reshaped to `[1, 1]`. -/
theorem v31_term :
    (V m c main_v31 : S1x1.Idx → EReal)
      = shapeCast S1x1 (m ((c : Thread nD τ).loc main_arg3) : S1.Idx → EReal) shapeCasts_S1_S1x1 := by
  dsimp only [Gen.V, Gen.V0]
  simp only [Gen.hostOps0, Gen.hostOps0_1, Gen.hostOps0_2, Gen.hostOps0_3, List.flatten_cons, List.flatten_nil,
    List.append_nil, List.cons_append, List.nil_append]
  after_results_simp
  rfl

/-- Operand 4 as a term of the arguments: the mask bits widened to words. -/
theorem v32_term :
    (V m c main_v32 : S6x4000000.Idx → BitVec 32)
      = extui 32 (m ((c : Thread nD τ).loc main_arg6) : S6x4000000.Idx → BitVec 1) natLt_1_32 := by
  dsimp only [Gen.V, Gen.V0]
  simp only [Gen.hostOps0, Gen.hostOps0_1, Gen.hostOps0_2, Gen.hostOps0_3, List.flatten_cons, List.flatten_nil,
    List.append_nil, List.cons_append, List.nil_append]
  after_results_simp

/-- Operand 2 of the launch (the first endpoints' radii, `[1, P]`) at `(0, j)`. -/
theorem v21_apply (j : Fin 4000000) :
    (V m c main_v21 : S1x4000000.Idx → EReal) (ix2 (0 : Fin 1) j)
      = radius (m ((c : Thread nD τ).loc main_arg1)) (m ((c : Thread nD τ).loc main_arg4)) (m ((c : Thread nD τ).loc main_arg5)) j 0 := by
  refine (congrFun (v21_term m c) (ix2 (0 : Fin 1) j)).trans ?_
  rw [radiusRow_apply, endpointCol0_apply]
  rfl

/-- Operand 3 of the launch (the second endpoints' radii) at `(0, j)`. -/
theorem v29_apply (j : Fin 4000000) :
    (V m c main_v29 : S1x4000000.Idx → EReal) (ix2 (0 : Fin 1) j)
      = radius (m ((c : Thread nD τ).loc main_arg1)) (m ((c : Thread nD τ).loc main_arg4)) (m ((c : Thread nD τ).loc main_arg5)) j 1 := by
  refine (congrFun (v29_term m c) (ix2 (0 : Fin 1) j)).trans ?_
  rw [radiusRow_apply, endpointCol1_apply]
  rfl

/-- Operand 5 of the launch (the tolerances as a column `[6, 1]`) at `(k, 0)`. -/
theorem v30_apply (k : Fin 6) :
    (V m c main_v30 : S6x1.Idx → EReal) (ix2 k (0 : Fin 1))
      = (m ((c : Thread nD τ).loc main_arg2) : S6.Idx → EReal) (ix1 k) := by
  refine (congrFun (v30_term m c) (ix2 k (0 : Fin 1))).trans ?_
  exact reshape_vec_apply shapeCasts_S6_S6x1 _ k

/-- Operand 6 of the launch (the weight as `[1, 1]`) at `(0, 0)`. -/
theorem v31_apply :
    (V m c main_v31 : S1x1.Idx → EReal) (ix2 (0 : Fin 1) (0 : Fin 1))
      = (m ((c : Thread nD τ).loc main_arg3) : S1.Idx → EReal) (ix1 (0 : Fin 1)) := by
  refine (congrFun (v31_term m c) (ix2 (0 : Fin 1) (0 : Fin 1))).trans ?_
  exact reshape_vec_apply shapeCasts_S1_S1x1 _ (0 : Fin 1)

/-- Operand 4 of the launch (the masks widened to words, `[6, P]`) at `(k, j)`. -/
theorem v32_apply (k : Fin 6) (j : Fin 4000000) :
    (V m c main_v32 : S6x4000000.Idx → BitVec 32) (ix2 k j)
      = ((m ((c : Thread nD τ).loc main_arg6) : S6x4000000.Idx → BitVec 1) (ix2 k j)).setWidth 32 := by
  refine (congrFun (v32_term m c) (ix2 k j)).trans ?_
  rfl

end Cert.KernelIdeal.HostValues

end
-- ==== Proof.ClashSums.lean ====
/-
  Two facts about sums of extended reals that join the kernel's order of summation to the reference's:
  a sum over all 4000000 pairs is the sum over the 25 blocks of the sums inside each block, and the running sum the
  kernel carries from block to block ends at the sum of the 25 blocks' parts.
-/
import proofs.«406138_j54004918780081_1_alg».proof.Proof.ClashSpec
import Mathlib.Algebra.BigOperators.Fin
import Mathlib.Logic.Equiv.Fin.Basic

noncomputable section

namespace Cert.Clash

open Idealize.ShloMosaic

/-- A pair is its block and its place within the block: `j = 160000 * (j / 160000) + j % 160000`, and the block and
    place of `160000 * t + l` with `l < 160000` are `t` and `l` again. -/
def blockEquiv : Fin 25 × Fin 160000 ≃ Fin 4000000 where
  toFun p := blockPair p.1 p.2
  invFun j := (⟨j.val / 160000, by have := j.isLt; omega⟩, ⟨j.val % 160000, by omega⟩)
  left_inv := by
    rintro ⟨t, l⟩
    have ht := t.isLt
    have hl := l.isLt
    refine Prod.ext (Fin.ext ?_) (Fin.ext ?_)
    · show (160000 * t.val + l.val) / 160000 = t.val
      omega
    · show (160000 * t.val + l.val) % 160000 = l.val
      omega
  right_inv := by
    intro j
    refine Fin.ext ?_
    show 160000 * (j.val / 160000) + j.val % 160000 = j.val
    omega

/-- A sum over all pairs is the sum over the blocks of the sums inside each block. -/
theorem sum_blocks (f : Fin 4000000 → EReal) :
    ∑ j : Fin 4000000, f j = ∑ t : Fin 25, ∑ l : Fin 160000, f (blockPair t l) := by
  rw [← Equiv.sum_comp blockEquiv f, Fintype.sum_prod_type]
  rfl

/-- The running sum after block `n` is the sum of the parts of blocks `0, …, n`: the reset word is `0`. -/
theorem acc_eq_sum_range (p : ℕ → EReal) (n : ℕ) : acc p n = ∑ i ∈ Finset.range (n + 1), p i := by
  induction n with
  | zero => rw [acc, Ideal.ofBits_zero_f32, zero_add, Finset.sum_range_one]
  | succ n ih => rw [acc, ih, Finset.sum_range_succ _ (n + 1)]

/-- After the last block the running sum is the sum of all 25 parts. -/
theorem acc_last (g : Fin 25 → EReal) :
    acc (fun i => if h : i < 25 then g ⟨i, h⟩ else 0) 24 = ∑ t : Fin 25, g t := by
  rw [acc_eq_sum_range, Finset.sum_range]
  refine Fintype.sum_congr _ _ fun t => ?_
  show (if h : t.val < 25 then g ⟨t.val, h⟩ else 0) = g t
  rw [dif_pos t.isLt]

end Cert.Clash

end
-- ==== Proof.KBridge.lean ====
/-
  The kernel's result is the specification's energy.

  Block `t` of an operand is the operand's array at the lanes `160000·t + l` (the tolerance and weight operands have
  one block), and the arrays the launch finds are the gathered coordinates, radii, tolerances, weight and widened masks
  of the arguments; so a lane's clash term is the specification's clash of pair `160000·t + l` (the tolerance added after
  the distance is subtracted: the same extended real), the accumulator after point `n` is the running sum of the blocks'
  parts, and the result — the last accumulator times `exp` of the weight — is the sum over all pairs times `exp(w)`.
-/
import proofs.«406138_j54004918780081_1_alg».proof.Proof.KFinal
import proofs.«406138_j54004918780081_1_alg».proof.Proof.KValue
import proofs.«406138_j54004918780081_1_alg».proof.Proof.KHostCoords
import proofs.«406138_j54004918780081_1_alg».proof.Proof.KHostRadii
import proofs.«406138_j54004918780081_1_alg».proof.Proof.ClashSums

noncomputable section

namespace Cert.KernelIdeal.Bridge

open Cert.KernelIdeal Cert.KernelIdeal.Gen Cert.KernelIdeal.Pieces Cert.KernelIdeal.Acc Cert.KernelIdeal.Final
open Cert.KernelIdeal.StepValue Cert.KernelIdeal.HostValues Cert.Clash
open Idealize.ShloMosaic Idealize.ShloMosaic.TcCoe Idealize.SL.Sem Idealize.ShloMosaic.ValueIdx

variable (m : (ℓ : Loc nD τ sig) → Buf (Elt Ideal) ℓ) (c : Dev nD)

/-- A grid point as a block number. -/
def blockOf (t : Fin cfg0.N) : Fin 25 := ⟨t.val, lt_of_lt_of_eq t.isLt (show cfg0.N = 25 from N_0)⟩

/-! ## The block indices of the seven input windows -/

theorem idx0 : ∀ t : Fin cfg0.N, win0_0.index t 0 = 0 ∧ win0_0.index t 1 = t.val := (by decide +kernel : ∀ t : Fin grid0.N, _)
theorem idx1 : ∀ t : Fin cfg0.N, win0_1.index t 0 = 0 ∧ win0_1.index t 1 = t.val := (by decide +kernel : ∀ t : Fin grid0.N, _)
theorem idx2 : ∀ t : Fin cfg0.N, win0_2.index t 0 = 0 ∧ win0_2.index t 1 = t.val := (by decide +kernel : ∀ t : Fin grid0.N, _)
theorem idx3 : ∀ t : Fin cfg0.N, win0_3.index t 0 = 0 ∧ win0_3.index t 1 = t.val := (by decide +kernel : ∀ t : Fin grid0.N, _)
theorem idx4 : ∀ t : Fin cfg0.N, win0_4.index t 0 = 0 ∧ win0_4.index t 1 = t.val := (by decide +kernel : ∀ t : Fin grid0.N, _)
theorem idx5 : ∀ t : Fin cfg0.N, win0_5.index t 0 = 0 ∧ win0_5.index t 1 = 0 := (by decide +kernel : ∀ t : Fin grid0.N, _)
theorem idx6 : ∀ t : Fin cfg0.N, win0_6.index t 0 = 0 ∧ win0_6.index t 1 = 0 := (by decide +kernel : ∀ t : Fin grid0.N, _)

/-! ## A window's block read off ANY array: the array at the block's offset plus the coordinate inside the block -/

theorem read0 (X : S3x4000000.Idx → EReal) (t : Fin cfg0.N) (a : Fin 3) (l : Fin 160000) :
    ((cfg0.win 0).blk t).view.read (Elt Ideal) X (ix2 a l) = X (ix2 a (blockPair (blockOf t) l)) := by
  rw [View.read_apply]
  refine congrArg X (funext fun d => Fin.ext ?_)
  match d with
  | ⟨0, _⟩ => show win0_0.index t 0 * 3 + 1 * a.val = a.val; rw [(idx0 t).1]; omega
  | ⟨1, _⟩ => show win0_0.index t 1 * 160000 + 1 * l.val = 160000 * t.val + l.val; rw [(idx0 t).2]; omega

theorem read1 (X : S3x4000000.Idx → EReal) (t : Fin cfg0.N) (a : Fin 3) (l : Fin 160000) :
    ((cfg0.win 1).blk t).view.read (Elt Ideal) X (ix2 a l) = X (ix2 a (blockPair (blockOf t) l)) := by
  rw [View.read_apply]
  refine congrArg X (funext fun d => Fin.ext ?_)
  match d with
  | ⟨0, _⟩ => show win0_1.index t 0 * 3 + 1 * a.val = a.val; rw [(idx1 t).1]; omega
  | ⟨1, _⟩ => show win0_1.index t 1 * 160000 + 1 * l.val = 160000 * t.val + l.val; rw [(idx1 t).2]; omega

theorem read2 (X : S1x4000000.Idx → EReal) (t : Fin cfg0.N) (l : Fin 160000) :
    ((cfg0.win 2).blk t).view.read (Elt Ideal) X (ix2 (0 : Fin 1) l) = X (ix2 (0 : Fin 1) (blockPair (blockOf t) l)) := by
  rw [View.read_apply]
  refine congrArg X (funext fun d => Fin.ext ?_)
  match d with
  | ⟨0, _⟩ => show win0_2.index t 0 * 1 + 1 * 0 = 0; rw [(idx2 t).1]
  | ⟨1, _⟩ => show win0_2.index t 1 * 160000 + 1 * l.val = 160000 * t.val + l.val; rw [(idx2 t).2]; omega

theorem read3 (X : S1x4000000.Idx → EReal) (t : Fin cfg0.N) (l : Fin 160000) :
    ((cfg0.win 3).blk t).view.read (Elt Ideal) X (ix2 (0 : Fin 1) l) = X (ix2 (0 : Fin 1) (blockPair (blockOf t) l)) := by
  rw [View.read_apply]
  refine congrArg X (funext fun d => Fin.ext ?_)
  match d with
  | ⟨0, _⟩ => show win0_3.index t 0 * 1 + 1 * 0 = 0; rw [(idx3 t).1]
  | ⟨1, _⟩ => show win0_3.index t 1 * 160000 + 1 * l.val = 160000 * t.val + l.val; rw [(idx3 t).2]; omega

theorem read4 (X : S6x4000000.Idx → BitVec 32) (t : Fin cfg0.N) (k : Fin 6) (l : Fin 160000) :
    ((cfg0.win 4).blk t).view.read (Elt Ideal) X (ix2 k l) = X (ix2 k (blockPair (blockOf t) l)) := by
  rw [View.read_apply]
  refine congrArg X (funext fun d => Fin.ext ?_)
  match d with
  | ⟨0, _⟩ => show win0_4.index t 0 * 6 + 1 * k.val = k.val; rw [(idx4 t).1]; omega
  | ⟨1, _⟩ => show win0_4.index t 1 * 160000 + 1 * l.val = 160000 * t.val + l.val; rw [(idx4 t).2]; omega

theorem read5 (X : S6x1.Idx → EReal) (t : Fin cfg0.N) (k : Fin 6) :
    ((cfg0.win 5).blk t).view.read (Elt Ideal) X (ix2 k (0 : Fin 1)) = X (ix2 k (0 : Fin 1)) := by
  rw [View.read_apply]
  refine congrArg X (funext fun d => Fin.ext ?_)
  match d with
  | ⟨0, _⟩ => show win0_5.index t 0 * 6 + 1 * k.val = k.val; rw [(idx5 t).1]; omega
  | ⟨1, _⟩ => show win0_5.index t 1 * 1 + 1 * 0 = 0; rw [(idx5 t).2]

theorem read6 (X : S1x1.Idx → EReal) (t : Fin cfg0.N) :
    ((cfg0.win 6).blk t).view.read (Elt Ideal) X (ix2 (0 : Fin 1) (0 : Fin 1)) = X (ix2 (0 : Fin 1) (0 : Fin 1)) := by
  rw [View.read_apply]
  refine congrArg X (funext fun d => Fin.ext ?_)
  match d with
  | ⟨0, _⟩ => show win0_6.index t 0 * 1 + 1 * 0 = 0; rw [(idx6 t).1]
  | ⟨1, _⟩ => show win0_6.index t 1 * 1 + 1 * 0 = 0; rw [(idx6 t).2]

/-! ## The point's input blocks, read off the arrays the launch finds -/

theorem blk0_apply (t : Fin cfg0.N) (a : Fin 3) (l : Fin 160000) :
    blk0 m c t (ix2 a l) = (V m c main_v5 : S3x4000000.Idx → EReal) (ix2 a (blockPair (blockOf t) l)) := read0 _ t a l
theorem blk1_apply (t : Fin cfg0.N) (a : Fin 3) (l : Fin 160000) :
    blk1 m c t (ix2 a l) = (V m c main_v6 : S3x4000000.Idx → EReal) (ix2 a (blockPair (blockOf t) l)) := read1 _ t a l
theorem blk2_apply (t : Fin cfg0.N) (l : Fin 160000) :
    blk2 m c t (ix2 (0 : Fin 1) l) = (V m c main_v21 : S1x4000000.Idx → EReal) (ix2 (0 : Fin 1) (blockPair (blockOf t) l)) := read2 _ t l
theorem blk3_apply (t : Fin cfg0.N) (l : Fin 160000) :
    blk3 m c t (ix2 (0 : Fin 1) l) = (V m c main_v29 : S1x4000000.Idx → EReal) (ix2 (0 : Fin 1) (blockPair (blockOf t) l)) := read3 _ t l
theorem blk4_apply (t : Fin cfg0.N) (k : Fin 6) (l : Fin 160000) :
    blk4 m c t (ix2 k l) = (V m c main_v32 : S6x4000000.Idx → BitVec 32) (ix2 k (blockPair (blockOf t) l)) := read4 _ t k l
theorem blk5_apply (t : Fin cfg0.N) (k : Fin 6) :
    blk5 m c t (ix2 k (0 : Fin 1)) = (V m c main_v30 : S6x1.Idx → EReal) (ix2 k (0 : Fin 1)) := read5 _ t k
theorem blk6_apply (t : Fin cfg0.N) :
    blk6 m c t (ix2 (0 : Fin 1) (0 : Fin 1)) = (V m c main_v31 : S1x1.Idx → EReal) (ix2 (0 : Fin 1) (0 : Fin 1)) := read6 _ t

/-! ## A lane's term is the specification's clash of its pair -/

theorem lane_eq (hr : PairsInRange (m ((c : Thread nD τ).loc main_arg5))) (t : Fin cfg0.N) (k : Fin 6) (l : Fin 160000) :
    laneTerm (blk0 m c t) (blk1 m c t) (blk2 m c t) (blk3 m c t) (blk4 m c t) (blk5 m c t) k l
      = clash (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) k (blockPair (blockOf t) l) := by
  have hs : (∑ a : Fin 3, (blk0 m c t (ix2 a l) - blk1 m c t (ix2 a l)) * (blk0 m c t (ix2 a l) - blk1 m c t (ix2 a l)))
      = sumsq (m ((c : Thread nD τ).loc main_arg0)) (m ((c : Thread nD τ).loc main_arg5)) (blockPair (blockOf t) l) :=
    Finset.sum_congr rfl fun a _ => by
      rw [blk0_apply, blk1_apply, v5_apply m c hr, v6_apply m c hr]
  unfold laneTerm clash rsum Cert.Clash.dist
  rw [hs, blk4_apply, blk2_apply, blk3_apply, blk5_apply, v32_apply, v21_apply, v29_apply, v30_apply, mask_ne_zero,
    sub_add_comm']

/-! ## The accumulator is the running sum of the blocks' parts -/

/-- Class `k`'s part of block `t`: the clashes of the block's pairs summed. -/
def blockSum (k : Fin 6) (t : Fin 25) : EReal :=
  ∑ l : Fin 160000, clash (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) k (blockPair t l)

/-- The parts by grid position (zero past the grid). -/
def part (k : Fin 6) (i : ℕ) : EReal := if h : i < 25 then blockSum m c k ⟨i, h⟩ else 0

theorem lanes_eq (hr : PairsInRange (m ((c : Thread nD τ).loc main_arg5))) (t : Fin cfg0.N) (k : Fin 6) :
    (∑ l : Fin 160000, laneTerm (blk0 m c t) (blk1 m c t) (blk2 m c t) (blk3 m c t) (blk4 m c t) (blk5 m c t) k l) = part m c k t.val := by
  unfold part
  rw [dif_pos (show t.val < 25 from (blockOf t).isLt)]
  exact Finset.sum_congr rfl fun l _ => lane_eq m c hr t k l

/-- The reset stores the zero column. -/
theorem zero_col (k : Fin 6) : (k0_pay3 (F := Ideal)) (ix2 k (0 : Fin 1)) = Ideal.ofBits .f32 0x00000000#32 := by
  unfold k0_pay3
  rw [shapeCast_self]
  rfl

theorem accAt_apply (hr : PairsInRange (m ((c : Thread nD τ).loc main_arg5))) (k : Fin 6) :
    ∀ (n : ℕ) (h : n < cfg0.N), accAt m c n h (ix2 k (0 : Fin 1)) = Cert.Clash.acc (part m c k) n
  | 0, h => by
    rw [accAt, step_apply, zero_col, lanes_eq m c hr ⟨0, h⟩ k]
    rfl
  | n + 1, h => by
    rw [accAt, step_apply, accAt_apply hr k n, lanes_eq m c hr ⟨n + 1, h⟩ k]
    rfl

/-! ## The result -/

/-- A `[6, 1]` column cast to `[6]` reads, at `k`, the column's entry `(k, 0)`. -/
theorem col_cast_apply (v : FVec Ideal S6x1 .f32) (k : Fin 6) :
    (shapeCast S6 v shapeCasts_S6x1_S6 : FVec Ideal S6 .f32) (ix1 k) = v (ix2 k (0 : Fin 1)) :=
  shapeCast_apply v shapeCasts_S6x1_S6 _ _ (by
    rw [Shape.rowMajor_val_two, Shape.rowMajor_val_one]
    show k.val * 1 + 0 = k.val
    omega)

/-- The output payload at class `k`: the accumulator's entry times `exp` of the weight block's one entry. -/
theorem pay2_apply (v41 : Vec Ideal S6x1 .f32) (v42 : Vec Ideal S1x1 .f32) (k : Fin 6) :
    k0_pay2 v41 v42 (ix2 k (0 : Fin 1)) = v41 (ix2 k (0 : Fin 1)) * Ideal.exp (v42 (ix2 (0 : Fin 1) (0 : Fin 1))) := by
  unfold k0_pay2
  show v41 (ix2 k (0 : Fin 1)) * Ideal.exp (extractAt ![0, 0] v42 inpos_S1x1_p0_0) = _
  refine congrArg (fun z => v41 (ix2 k (0 : Fin 1)) * Ideal.exp z) ?_
  unfold extractAt
  refine congrArg v42 (funext fun d => Fin.ext ?_)
  match d with
  | ⟨0, _⟩ => rfl
  | ⟨1, _⟩ => rfl

/-- THE KERNEL'S RESULT at class `k` is the specification's energy of the arguments. -/
theorem result_eq (hr : PairsInRange (m ((c : Thread nD τ).loc main_arg5))) (k : Fin 6) :
    (shapeCast S6 (outBlock m c) shapeCasts_S6x1_S6 : S6.Idx → EReal) (ix1 k)
      = energy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) k := by
  refine (col_cast_apply _ k).trans ?_
  refine (pay2_apply _ _ k).trans ?_
  rw [accAt_apply m c hr k, blk6_apply, v31_apply]
  unfold energy
  refine congrArg (· * Ideal.exp ((m ((c : Thread nD τ).loc main_arg3)) (ix1 (0 : Fin 1)))) ?_
  exact (acc_last (blockSum m c k)).trans (sum_blocks (clash (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) k)).symm

end Cert.KernelIdeal.Bridge

end
-- ==== Proof.lean ====
/-
  The clash-energy kernel against its jnp reference, over the extended reals, for pair indices in `[-100000, 100000)`.

  Both programs compute, for each of the six tolerance classes `k`, `(∑ⱼ clash k j) · exp(w)` over the 4000000 pairs
  (`Cert.Clash.energy`, Proof/ClashSpec.lean). The reference does it in one pass over whole arrays (Proof/RefValue.lean,
  over its generated run). The kernel gathers the pair endpoints' coordinates and radii on the host — its coordinate
  gather fills out-of-range rows with a NaN pattern, which never happens for indices in range — and then sweeps 25 blocks
  of 160000 pairs, carrying the six running sums in a scratch column and writing `sum · exp(w)` after the last block
  (Proof/KPieces.lean, KAcc.lean, KFinal.lean over the generated frame; Proof/KValue.lean, KBridge.lean for the values).
  The two sums differ in order and grouping only, and the tolerance is added before or after the distance is
  subtracted: equal extended reals with no finiteness needed. The three frames are the generated ones; the ideal pass
  rewrote nothing, so `preserves` is trivial.
-/
import proofs.«406138_j54004918780081_1_alg».proof.Defs
import proofs.«406138_j54004918780081_1_alg».proof.Proof.Gen.Kernel
import proofs.«406138_j54004918780081_1_alg».proof.Proof.Gen.Kernel.Frame
import proofs.«406138_j54004918780081_1_alg».proof.Proof.Gen.KernelIdeal
import proofs.«406138_j54004918780081_1_alg».proof.Proof.Gen.KernelIdeal.Frame
import proofs.«406138_j54004918780081_1_alg».proof.Proof.Gen.ReferenceIdeal
import proofs.«406138_j54004918780081_1_alg».proof.Proof.Gen.ReferenceIdeal.Run
import proofs.«406138_j54004918780081_1_alg».proof.Proof.Gen.ReferenceIdeal.Read
import proofs.«406138_j54004918780081_1_alg».proof.Proof.Gen.Pre_finite_inputs
import proofs.«406138_j54004918780081_1_alg».proof.Proof.PreRange
import proofs.«406138_j54004918780081_1_alg».proof.Proof.RefValue
import proofs.«406138_j54004918780081_1_alg».proof.Proof.KBridge
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At `Ideal` the kernel's result ends at the reshaped output block (the kernel's run, read) and the reference's at its
    composed term (the generated reference run) of arguments that agree; class by class both are the specification's
    energy — the kernel's under the precondition's range for the pair indices. -/
theorem algebraic : Cert.algebraic_KernelIdeal_ReferenceIdeal := by
  intro m ρ m' ρ' hpre hagree
  refine ⟨fun c => shapeCast Cert.KernelIdeal.S6 (Cert.KernelIdeal.Final.outBlock m c) Cert.KernelIdeal.Gen.shapeCasts_S6x1_S6,
    Cert.KernelIdeal.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v67_eq, (hagree c).1, (hagree c).2.1, (hagree c).2.2.1, (hagree c).2.2.2.1,
    (hagree c).2.2.2.2.1, (hagree c).2.2.2.2.2.1, (hagree c).2.2.2.2.2.2]
  funext i
  obtain ⟨k, rfl⟩ : ∃ k : Fin 6, i = ix1 k := ⟨i 0, eq_ix1 i⟩
  rw [Cert.ReferenceIdeal.RefValue.result_eq]
  exact (Cert.KernelIdeal.Bridge.result_eq m c (Cert.Clash.pairsInRange_of_pre _ _ _ _ _ _ _ (hpre c)) k).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
